-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x16384 : Shape := ⟨2, ![4096, 16384]⟩
abbrev S128x128 : Shape := ⟨2, ![128, 128]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x16384 : S_.BroadcastsInDim S4096x16384 (![] : Fin 0 → Fin S4096x16384.rank)
  reducesTo_S4096x16384_S_d0_1 : S4096x16384.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S4096x128 .f32) (main_arg1 : FVec F S4096x16384 .f32) (main_arg2 : FVec F S128x128 .f32) (main_arg3 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S4096x128 : Shape := ⟨2, ![4096, 128]⟩
abbrev S4096x16384 : Shape := ⟨2, ![4096, 16384]⟩
abbrev S128x128 : Shape := ⟨2, ![128, 128]⟩
abbrev S128 : Shape := ⟨1, ![128]⟩
abbrev S4x1x32 : Shape := ⟨3, ![4, 1, 32]⟩
abbrev S32x4096 : Shape := ⟨2, ![32, 4096]⟩
abbrev S1024x2048 : Shape := ⟨2, ![1024, 2048]⟩
abbrev S32x1024 : Shape := ⟨2, ![32, 1024]⟩
abbrev S16384x32 : Shape := ⟨2, ![16384, 32]⟩
abbrev S32x128 : Shape := ⟨2, ![32, 128]⟩
abbrev S4096x32 : Shape := ⟨2, ![4096, 32]⟩
abbrev S1x1x32 : Shape := ⟨3, ![1, 1, 32]⟩
abbrev S1x32 : Shape := ⟨2, ![1, 32]⟩
abbrev S2048x32 : Shape := ⟨2, ![2048, 32]⟩

abbrev nBuf : Space → Nat
  | .hbm => 7
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S4096x16384, .f32⟩
  | .hbm, ⟨2, _⟩ => ⟨S128x128, .f32⟩
  | .hbm, ⟨3, _⟩ => ⟨S128, .f32⟩
  | .hbm, ⟨4, _⟩ => ⟨S4x1x32, .f32⟩
  | .hbm, ⟨5, _⟩ => ⟨S32x4096, .f32⟩
  | .hbm, ⟨6, _⟩ => ⟨S4096x32, .f32⟩
  | .local _ .vmem, ⟨0, _⟩ => ⟨S4096x128, .f32⟩
  | .local _ .vmem, ⟨1, _⟩ => ⟨S128x128, .f32⟩
  | .local _ .vmem, ⟨2, _⟩ => ⟨S4x1x32, .f32⟩
  | .local _ .vmem, ⟨3, _⟩ => ⟨S1024x2048, .f32⟩
  | .local _ .vmem, ⟨4, _⟩ => ⟨S1024x2048, .f32⟩
  | .local _ .vmem, ⟨5, _⟩ => ⟨S32x1024, .f32⟩
  | .local _ .vmem, ⟨6, _⟩ => ⟨S32x1024, .f32⟩
  | .local _ .vmem, ⟨7, _⟩ => ⟨S16384x32, .bf16⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 8], ![false, false]⟩

def k0_off1 (i : grid0.Coords) : Fin 2 → Nat :=
  let arg1 : BitVec 32 := BitVec.ofNat 32 (i 1).val
  let c2048_i32 : BitVec 32 := 2048#32
  let v5 : BitVec 32 := Scalar.muli arg1 c2048_i32
  let v6 : Index := Scalar.indexCast v5
  let c0 : Index := 0#32
  ![v6.toNat, 0]
def k0_cond2 (i : grid0.Coords) : BitVec 1 :=
  let arg1 : BitVec 32 := BitVec.ofNat 32 (i 1).val
  let c0_i32_4 : BitVec 32 := 0#32
  let v11 : BitVec 1 := Scalar.cmpi .eq arg1 c0_i32_4
  let v12 : BitVec 32 := Scalar.extui v11
  let c0_i32_5 : BitVec 32 := 0#32
  let v13 : BitVec 1 := Scalar.cmpi .ne v12 c0_i32_5
  v13

def k0_cond3 (i : grid0.Coords) : BitVec 1 :=
  let arg1 : BitVec 32 := BitVec.ofNat 32 (i 1).val
  let c0_i32_6 : BitVec 32 := 0#32
  let v14 : BitVec 1 := Scalar.cmpi .sgt arg1 c0_i32_6
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S128_S4x1x32 : S128.ShapeCasts S4x1x32
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S128x128_o0_0_S32x128 : S128x128.Slices ![0, 0] S32x128
  inb_S4x1x32_S1x1x32_0_0_0 : ∀ a, (![0, 0, 0] : Fin 3 → Nat) a + S1x1x32.size a ≤ S4x1x32.size a
  h_S1x1x32 : 0 < S1x1x32.numel
  shapeCasts_S1x1x32_S1x32 : S1x1x32.ShapeCasts S1x32
  broadcasts_S1x32_S4096x32 : S1x32.Broadcasts S4096x32
  inb_S16384x32_S4096x32_0_0 : ∀ a, (![0, 0] : Fin 2 → Nat) a + S4096x32.size a ≤ S16384x32.size a
  h_S4096x32 : 0 < S4096x32.numel
  shapeCasts_S4096x32_S4096x32 : S4096x32.ShapeCasts S4096x32
  packedbf16_S16384x32_S4096x32_0_0 : (Rect.unit (s := S16384x32) ![0, 0] S4096x32.size inb_S16384x32_S4096x32_0_0).PackedRows (EltTy.packing .bf16)
  slices_S128x128_o32_0_S32x128 : S128x128.Slices ![32, 0] S32x128
  inb_S4x1x32_S1x1x32_1_0_0 : ∀ a, (![1, 0, 0] : Fin 3 → Nat) a + S1x1x32.size a ≤ S4x1x32.size a
  inb_S16384x32_S4096x32_4096_0 : ∀ a, (![4096, 0] : Fin 2 → Nat) a + S4096x32.size a ≤ S16384x32.size a
  packedbf16_S16384x32_S4096x32_4096_0 : (Rect.unit (s := S16384x32) ![4096, 0] S4096x32.size inb_S16384x32_S4096x32_4096_0).PackedRows (EltTy.packing .bf16)
  slices_S128x128_o64_0_S32x128 : S128x128.Slices ![64, 0] S32x128
  inb_S4x1x32_S1x1x32_2_0_0 : ∀ a, (![2, 0, 0] : Fin 3 → Nat) a + S1x1x32.size a ≤ S4x1x32.size a
  inb_S16384x32_S4096x32_8192_0 : ∀ a, (![8192, 0] : Fin 2 → Nat) a + S4096x32.size a ≤ S16384x32.size a
  packedbf16_S16384x32_S4096x32_8192_0 : (Rect.unit (s := S16384x32) ![8192, 0] S4096x32.size inb_S16384x32_S4096x32_8192_0).PackedRows (EltTy.packing .bf16)
  slices_S128x128_o96_0_S32x128 : S128x128.Slices ![96, 0] S32x128
  inb_S4x1x32_S1x1x32_3_0_0 : ∀ a, (![3, 0, 0] : Fin 3 → Nat) a + S1x1x32.size a ≤ S4x1x32.size a
  inb_S16384x32_S4096x32_12288_0 : ∀ a, (![12288, 0] : Fin 2 → Nat) a + S4096x32.size a ≤ S16384x32.size a
  packedbf16_S16384x32_S4096x32_12288_0 : (Rect.unit (s := S16384x32) ![12288, 0] S4096x32.size inb_S16384x32_S4096x32_12288_0).PackedRows (EltTy.packing .bf16)
  h_S2048x32 : 0 < S2048x32.numel
  inb_S1024x2048_S1024x2048_0_0 : ∀ a, (![0, 0] : Fin 2 → Nat) a + S1024x2048.size a ≤ S1024x2048.size a
  h_S1024x2048 : 0 < S1024x2048.numel
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  transposes_S32x4096_S4096x32_1_0 : S32x4096.Transposes [1, 0] S4096x32
  dot_S4096x128_S32x128_S4096x32_1_1_0_0_n_n_wf : DotDims.WF S4096x128 S32x128 S4096x32 [1] [1] [0] [0] [] []
  dot_S2048x32_S1024x2048_S32x1024_0_1_1_0_n_n_wf : DotDims.WF S2048x32 S1024x2048 S32x1024 [0] [1] [1] [0] [] []
  hrank0 : 0 < grid0.rank
  k0_off1_inb : ∀ i : grid0.Coords, ∀ a, (k0_off1 i) a + S2048x32.size a ≤ S16384x32.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1x32.size a ≤ S4x1x32.size a
  hwx0_2 : ∀ i : grid0.Coords, EltTy.bits .f32 = 32 ∨ (Rect.block (s := S4x1x32) S4x1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S4096x16384.size a
  hwx0_3 : ∀ i : grid0.Coords, EltTy.bits .f32 = 32 ∨ (Rect.block (s := S4096x16384) S1024x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1024.size a ≤ S32x4096.size a
  hwx0_4 : ∀ i : grid0.Coords, EltTy.bits .f32 = 32 ∨ (Rect.block (s := S32x4096) S32x1024.size (cc0_transform_4 i) (hinb0_4 i)).WholeWords (EltTy.packing .f32)

variable [Facts₀]

def dot_S4096x128_S32x128_S4096x32_1_1_0_0_n_n : DotDims S4096x128 S32x128 S4096x32 where
  lhsContracting := [1]
  rhsContracting := [1]
  lhsNonContracting := [0]
  rhsNonContracting := [0]
  lhsBatch := []
  rhsBatch := []
  wf := dot_S4096x128_S32x128_S4096x32_1_1_0_0_n_n_wf
def dot_S2048x32_S1024x2048_S32x1024_0_1_1_0_n_n : DotDims S2048x32 S1024x2048 S32x1024 where
  lhsContracting := [0]
  rhsContracting := [1]
  lhsNonContracting := [1]
  rhsNonContracting := [0]
  lhsBatch := []
  rhsBatch := []
  wf := dot_S2048x32_S1024x2048_S32x1024_0_1_1_0_n_n_wf

abbrev win0_0 : Pipeline.Window sig grid0 :=
  Pipeline.Window.ofSpec (Memref.whole main_arg0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S32x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) && !(k0_cond3 i == 1#1) | ⟨_ + 5, h⟩ => absurd h (Nat.not_lt.2 (Nat.le_add_left _ _))

class Facts : Prop extends Facts₀ where

variable [Facts]
-- ==== ReferenceIdeal.lean ====
abbrev S4096x128 : Shape := ⟨2, ![4096, 128]⟩
abbrev S4096x16384 : Shape := ⟨2, ![4096, 16384]⟩
abbrev S128x128 : Shape := ⟨2, ![128, 128]⟩
abbrev S128 : Shape := ⟨1, ![128]⟩
abbrev S1x128 : Shape := ⟨2, ![1, 128]⟩
abbrev S4096x4x32 : Shape := ⟨3, ![4096, 4, 32]⟩
abbrev S4x4096x32 : Shape := ⟨3, ![4, 4096, 32]⟩
abbrev S16384x32 : Shape := ⟨2, ![16384, 32]⟩
abbrev S4096x32 : Shape := ⟨2, ![4096, 32]⟩

abbrev nBuf : Space → Nat
  | .hbm => 13
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x16384, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S4096x128, .f32⟩
  | .hbm, ⟨6, _⟩ => ⟨S1x128, .f32⟩
  | .hbm, ⟨7, _⟩ => ⟨S4096x128, .f32⟩
  | .hbm, ⟨8, _⟩ => ⟨S4096x128, .f32⟩
  | .hbm, ⟨9, _⟩ => ⟨S4096x4x32, .f32⟩
  | .hbm, ⟨10, _⟩ => ⟨S4x4096x32, .f32⟩
  | .hbm, ⟨11, _⟩ => ⟨S16384x32, .f32⟩
  | .hbm, ⟨12, _⟩ => ⟨S4096x32, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  shapeCasts_S4096x128_S4096x4x32 : S4096x128.ShapeCasts S4096x4x32
  transposes_S4096x4x32_S4x4096x32_1_0_2 : S4096x4x32.Transposes [1, 0, 2] S4x4096x32
  shapeCasts_S4x4096x32_S16384x32 : S4x4096x32.ShapeCasts S16384x32
  dot_S4096x128_S128x128_S4096x128_1_0_0_1_n_n_wf : DotDims.WF S4096x128 S128x128 S4096x128 [1] [0] [0] [1] [] []
  dot_S4096x16384_S16384x32_S4096x32_1_0_0_1_n_n_wf : DotDims.WF S4096x16384 S16384x32 S4096x32 [1] [0] [0] [1] [] []

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x16384_S16384x32_S4096x32_1_0_0_1_n_n : DotDims S4096x16384 S16384x32 S4096x32 where
  lhsContracting := [1]
  rhsContracting := [0]
  lhsNonContracting := [0]
  rhsNonContracting := [1]
  lhsBatch := []
  rhsBatch := []
  wf := dot_S4096x16384_S16384x32_S4096x32_1_0_0_1_n_n_wf

class Facts : Prop extends Facts₀ where

variable [Facts]
-- ==== Proof.BitsBranches.lean ====
/-
  Which grid points take which branch of the kernel body. The grid is 4 × 8, walked in order: point t has
  coordinates (t / 8, t mod 8). The layer is computed into the scratch only at point 0; the output block is
  assigned where t mod 8 = 0 and added into elsewhere. The output window is therefore never idle, is written
  back exactly after the last tile of a row band (t mod 8 = 7), and the tile of the layer the body loads
  starts at row (t mod 8) · 2048.
-/
import proofs.«168233_g16793322127443_cont_week2b_1270_42_alg».proof.Proof.Gen.Kernel.Frame
import proofs.«168233_g16793322127443_cont_week2b_1270_42_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition (both coordinates zero), as the body computes it. -/
abbrev condInit (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem hInit : ∀ t : Fin cfg0.N, condInit (grid0.coords t) ↔ t.val = 0 :=
  (by decide +kernel : ∀ t : Fin grid0.N, condInit (grid0.coords t) ↔ t.val = 0)

/-- The second condition (the tile coordinate is zero): the output block is assigned. -/
abbrev condAssign (i : grid0.Coords) : Prop := k0_cond2 i = 1#1
theorem hAssign : ∀ t : Fin cfg0.N, condAssign (grid0.coords t) ↔ t.val % 8 = 0 :=
  (by decide +kernel : ∀ t : Fin grid0.N, condAssign (grid0.coords t) ↔ t.val % 8 = 0)

/-- The third condition (the tile coordinate is positive): the output block is added into. -/
abbrev condAdd (i : grid0.Coords) : Prop := k0_cond3 i = 1#1
theorem hAdd : ∀ t : Fin cfg0.N, condAdd (grid0.coords t) ↔ ¬ t.val % 8 = 0 :=
  (by decide +kernel : ∀ t : Fin grid0.N, condAdd (grid0.coords t) ↔ ¬ t.val % 8 = 0)

/-- The output window is live at every point: one of the two stores runs. -/
theorem liveOut : ∀ t : Fin cfg0.N, cfg0.idle 4 (grid0.coords t) = false := by decide +kernel
/-- The input windows are never idle. -/
theorem liveIn0 : ∀ t : Fin cfg0.N, cfg0.idle 0 (grid0.coords t) = false := by decide +kernel
theorem liveIn1 : ∀ t : Fin cfg0.N, cfg0.idle 1 (grid0.coords t) = false := by decide +kernel
theorem liveIn2 : ∀ t : Fin cfg0.N, cfg0.idle 2 (grid0.coords t) = false := by decide +kernel
theorem liveIn3 : ∀ t : Fin cfg0.N, cfg0.idle 3 (grid0.coords t) = false := by decide +kernel

/-- The first row of the layer tile the body loads at point t. -/
theorem tileOff : ∀ t : Fin cfg0.N, k0_off1 (grid0.coords t) = ![t.val % 8 * 2048, 0] :=
  (by decide +kernel : ∀ t : Fin grid0.N, k0_off1 (grid0.coords t) = ![t.val % 8 * 2048, 0])

end Cert.Kernel.Hand

end
-- ==== Proof.BitsRuns.lean ====
/-
  The kernel body run whole, once per way its three branches can go. On staging memrefs holding the four input
  blocks, an output buffer and the scratch, the body terminates without a fault and hands everything back:
  the inputs as they were, the output buffer and the scratch with the body's stores written over what they held.
  What is stored is found by running the body: each run carries the list of its stores as its witness.
  * first point: the scratch (at anything) receives the four layer stores, the output buffer (at anything) the
    first tile product;
  * a later band start: the scratch is only read, the output buffer (at anything) receives the tile product;
  * elsewhere: the scratch is only read, the output buffer receives what it held plus the tile product.
-/
import proofs.«168233_g16793322127443_cont_week2b_1270_42_alg».proof.Proof.BitsBranches

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point. -/
noncomputable def runInit (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S1024x2048 .f32) (harg5 : arg5.IsWhole) (arg6 : Memref sig .tc .vmem S32x1024 .f32) (harg6 : arg6.IsWhole) (arg7 : Memref sig .tc .vmem S16384x32 .bf16) (harg7 : arg7.IsWhole)
    (hc1 : condInit i) (hc2 : condAssign i) (hc3 : ¬condAdd i) (x0 : Vec F S4096x128 .f32) (x1 : Vec F S128x128 .f32) (x2 : Vec F S4x1x32 .f32) (x3 : Vec F S1024x2048 .f32) :
    Σ' (L4 : List (View.Piece (Elt F) S32x1024 .f32)), { LS : List (View.Piece (Elt F) S16384x32 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS

set_option maxHeartbeats 4000000 in
/-- The body at a later band start: the scratch holds `h`. -/
noncomputable def runAssign (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S1024x2048 .f32) (harg5 : arg5.IsWhole) (arg6 : Memref sig .tc .vmem S32x1024 .f32) (harg6 : arg6.IsWhole) (arg7 : Memref sig .tc .vmem S16384x32 .bf16) (harg7 : arg7.IsWhole)
    (hc1 : ¬condInit i) (hc2 : condAssign i) (hc3 : ¬condAdd i) (x0 : Vec F S4096x128 .f32) (x1 : Vec F S128x128 .f32) (x2 : Vec F S4x1x32 .f32) (x3 : Vec F S1024x2048 .f32) (h : Vec F S16384x32 .bf16) :
    { L4 : List (View.Piece (Elt F) S32x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare h
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ owns (c : Thread nD τ) arg7 fullShare h) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; isplitr; · ipureintro; exact harg7.read_unread _
    iexact HS

set_option maxHeartbeats 4000000 in
/-- The body elsewhere: the scratch holds `h`, the output buffer `o`. -/
noncomputable def runAdd (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S1024x2048 .f32) (harg5 : arg5.IsWhole) (arg6 : Memref sig .tc .vmem S32x1024 .f32) (harg6 : arg6.IsWhole) (arg7 : Memref sig .tc .vmem S16384x32 .bf16) (harg7 : arg7.IsWhole)
    (hc1 : ¬condInit i) (hc2 : ¬condAssign i) (hc3 : condAdd i) (x0 : Vec F S4096x128 .f32) (x1 : Vec F S128x128 .f32) (x2 : Vec F S4x1x32 .f32) (x3 : Vec F S1024x2048 .f32) (h : Vec F S16384x32 .bf16) (o : Vec F S32x1024 .f32) :
    { L4 : List (View.Piece (Elt F) S32x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare o ∗ owns (c : Thread nD τ) arg7 fullShare h
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ owns (c : Thread nD τ) arg7 fullShare h) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; isplitr; · ipureintro; exact harg7.read_unread _
    iexact HS

end Cert.Kernel.Hand

end
-- ==== Proof.BitsFrame.lean ====
/-
  The frame of the program and what its run leaves in the output array.

  What the buffers hold point by point. The scratch holds anything before point 0 and, from then on, the
  regrouped layer that point 0 stores (four stores of 4096 rows each, which tile it). The output buffer holds,
  after point t, the tile product of point t where t mod 8 = 0 and what point t - 1 left plus the tile product
  elsewhere: between two such points the output window's block index does not move and the block is not
  written back, so the body finds what it left. The input buffers hold their blocks at every point.
  With these as proof data the body's run at each point is the obligation the pipeline asks, and the launch
  theorem gives the run of the whole program: it terminates, faults nowhere, leaves the argument arrays as they
  were and the output array at the blocks written back.
-/
import proofs.«168233_g16793322127443_cont_week2b_1270_42_alg».proof.Proof.BitsRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, and its wholeness. -/
abbrev ms0 (t : Fin cfg0.N) : Memref sig .tc .vmem S4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x1x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S32x1024 .f32 := win0_4.stage (cfg0.slots t 4)
abbrev hs4 (t : Fin cfg0.N) : (ms4 t).IsWhole := hstage0_4 ((cfg0.slots t 4).cast nbuf0_4)
/-- The scratch that holds the regrouped layer: a whole buffer of the kernel's own. -/
abbrev scM : Memref sig .tc .vmem S16384x32 .bf16 := Memref.whole cc0_scratch0
/-- The views through which the scratch's and the output buffer's contents are stated. -/
abbrev VS : View sig .tc .vmem S16384x32 .bf16 := scM.view
abbrev VO : View sig .tc .vmem S32x1024 .f32 := (Memref.whole cc0_stg4_0 : Memref sig .tc .vmem S32x1024 .f32).view

/-- The region's invariant names the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The first point. -/
abbrev t0 : Fin cfg0.N := ⟨0, by decide⟩

theorem hInit0 : condInit (grid0.coords t0) := (hInit t0).mpr rfl
theorem hAssign0 : condAssign (grid0.coords t0) := (hAssign t0).mpr (by decide)
theorem hAdd0 : ¬condAdd (grid0.coords t0) := fun h => (hAdd t0).mp h (by decide)

/-- What point 0 stores into the scratch tiles it: four stores of 4096 rows. -/
theorem layerCover (c : Dev nD) (y : S16384x32.Idx) :
    ∃ pc ∈ (runInit (F := F) c (grid0.coords t0) (ms0 t0) (hs0 t0) (ms1 t0) (hs1 t0) (ms2 t0) (hs2 t0) (ms3 t0) (hs3 t0) (ms4 t0) (hs4 t0) scM (Memref.isWhole_whole _) hInit0 hAssign0 hAdd0 (iblk m c 0 t0) (iblk m c 1 t0) (iblk m c 2 t0) (iblk m c 3 t0)).2.1, y ∈ pc.1.set :=
  View.cover_of_tiledL (runInit (F := F) c (grid0.coords t0) (ms0 t0) (hs0 t0) (ms1 t0) (hs1 t0) (ms2 t0) (hs2 t0) (ms3 t0) (hs3 t0) (ms4 t0) (hs4 t0) scM (Memref.isWhole_whole _) hInit0 hAssign0 hAdd0 (iblk m c 0 t0) (iblk m c 1 t0) (iblk m c 2 t0) (iblk m c 3 t0)).2.1 S4096x32.size (by sl_kernel_rfl) y

/-- THE REGROUPED LAYER as the scratch holds it from point 0 on: point 0's stores read back. -/
def layerAt (c : Dev nD) : Vec F S16384x32 .bf16 :=
  VS.read (Elt F) (VS.writes (Elt F) VS.junk (runInit (F := F) c (grid0.coords t0) (ms0 t0) (hs0 t0) (ms1 t0) (hs1 t0) (ms2 t0) (hs2 t0) (ms3 t0) (hs3 t0) (ms4 t0) (hs4 t0) scM (Memref.isWhole_whole _) hInit0 hAssign0 hAdd0 (iblk m c 0 t0) (iblk m c 1 t0) (iblk m c 2 t0) (iblk m c 3 t0)).2.1)

/-- The one store into the output buffer at point 0 covers it. -/
theorem outCoverInit (c : Dev nD) (y : S32x1024.Idx) :
    ∃ pc ∈ (runInit (F := F) c (grid0.coords t0) (ms0 t0) (hs0 t0) (ms1 t0) (hs1 t0) (ms2 t0) (hs2 t0) (ms3 t0) (hs3 t0) (ms4 t0) (hs4 t0) scM (Memref.isWhole_whole _) hInit0 hAssign0 hAdd0 (iblk m c 0 t0) (iblk m c 1 t0) (iblk m c 2 t0) (iblk m c 3 t0)).1, y ∈ pc.1.set :=
  View.cover_of_tiledL (runInit (F := F) c (grid0.coords t0) (ms0 t0) (hs0 t0) (ms1 t0) (hs1 t0) (ms2 t0) (hs2 t0) (ms3 t0) (hs3 t0) (ms4 t0) (hs4 t0) scM (Memref.isWhole_whole _) hInit0 hAssign0 hAdd0 (iblk m c 0 t0) (iblk m c 1 t0) (iblk m c 2 t0) (iblk m c 3 t0)).1 S32x1024.size (by sl_kernel_rfl) y

/-- The store into the output buffer at a later band start covers it. -/
theorem outCoverAssign (c : Dev nD) (t : Fin cfg0.N) (h1 : ¬condInit (grid0.coords t)) (h2 : condAssign (grid0.coords t)) (h3 : ¬condAdd (grid0.coords t))
    (h : Vec F S16384x32 .bf16) (y : S32x1024.Idx) :
    ∃ pc ∈ (runAssign (F := F) c (grid0.coords t) (ms0 t) (hs0 t) (ms1 t) (hs1 t) (ms2 t) (hs2 t) (ms3 t) (hs3 t) (ms4 t) (hs4 t) scM (Memref.isWhole_whole _) h1 h2 h3 (iblk m c 0 t) (iblk m c 1 t) (iblk m c 2 t) (iblk m c 3 t) h).1, y ∈ pc.1.set :=
  View.cover_of_tiledL (runAssign (F := F) c (grid0.coords t) (ms0 t) (hs0 t) (ms1 t) (hs1 t) (ms2 t) (hs2 t) (ms3 t) (hs3 t) (ms4 t) (hs4 t) scM (Memref.isWhole_whole _) h1 h2 h3 (iblk m c 0 t) (iblk m c 1 t) (iblk m c 2 t) (iblk m c 3 t) h).1 S32x1024.size (by sl_kernel_rfl) y

/-- The store into the output buffer elsewhere covers it. -/
theorem outCoverAdd (c : Dev nD) (t : Fin cfg0.N) (h1 : ¬condInit (grid0.coords t)) (h2 : ¬condAssign (grid0.coords t)) (h3 : condAdd (grid0.coords t))
    (h : Vec F S16384x32 .bf16) (o : Vec F S32x1024 .f32) (y : S32x1024.Idx) :
    ∃ pc ∈ (runAdd (F := F) c (grid0.coords t) (ms0 t) (hs0 t) (ms1 t) (hs1 t) (ms2 t) (hs2 t) (ms3 t) (hs3 t) (ms4 t) (hs4 t) scM (Memref.isWhole_whole _) h1 h2 h3 (iblk m c 0 t) (iblk m c 1 t) (iblk m c 2 t) (iblk m c 3 t) h o).1, y ∈ pc.1.set :=
  View.cover_of_tiledL (runAdd (F := F) c (grid0.coords t) (ms0 t) (hs0 t) (ms1 t) (hs1 t) (ms2 t) (hs2 t) (ms3 t) (hs3 t) (ms4 t) (hs4 t) scM (Memref.isWhole_whole _) h1 h2 h3 (iblk m c 0 t) (iblk m c 1 t) (iblk m c 2 t) (iblk m c 3 t) h o).1 S32x1024.size (by sl_kernel_rfl) y

/-- What the body leaves in the output buffer at a later band start, the scratch holding `h`. -/
def outAssign (c : Dev nD) (t : Fin cfg0.N) (h1 : ¬condInit (grid0.coords t)) (h2 : condAssign (grid0.coords t)) (h3 : ¬condAdd (grid0.coords t))
    (h : Vec F S16384x32 .bf16) : Vec F S32x1024 .f32 :=
  VO.read (Elt F) (VO.writes (Elt F) VO.junk (runAssign (F := F) c (grid0.coords t) (ms0 t) (hs0 t) (ms1 t) (hs1 t) (ms2 t) (hs2 t) (ms3 t) (hs3 t) (ms4 t) (hs4 t) scM (Memref.isWhole_whole _) h1 h2 h3 (iblk m c 0 t) (iblk m c 1 t) (iblk m c 2 t) (iblk m c 3 t) h).1)

/-- What the body leaves in the output buffer elsewhere, the scratch holding `h` and the buffer `o`. -/
def outAdd (c : Dev nD) (t : Fin cfg0.N) (h1 : ¬condInit (grid0.coords t)) (h2 : ¬condAssign (grid0.coords t)) (h3 : condAdd (grid0.coords t))
    (h : Vec F S16384x32 .bf16) (o : Vec F S32x1024 .f32) : Vec F S32x1024 .f32 :=
  VO.read (Elt F) (VO.writes (Elt F) VO.junk (runAdd (F := F) c (grid0.coords t) (ms0 t) (hs0 t) (ms1 t) (hs1 t) (ms2 t) (hs2 t) (ms3 t) (hs3 t) (ms4 t) (hs4 t) scM (Memref.isWhole_whole _) h1 h2 h3 (iblk m c 0 t) (iblk m c 1 t) (iblk m c 2 t) (iblk m c 3 t) h o).1)

/-- What the body leaves in the output buffer at point 0. -/
def outInit (c : Dev nD) : Vec F S32x1024 .f32 :=
  VO.read (Elt F) (VO.writes (Elt F) VO.junk (runInit (F := F) c (grid0.coords t0) (ms0 t0) (hs0 t0) (ms1 t0) (hs1 t0) (ms2 t0) (hs2 t0) (ms3 t0) (hs3 t0) (ms4 t0) (hs4 t0) scM (Memref.isWhole_whole _) hInit0 hAssign0 hAdd0 (iblk m c 0 t0) (iblk m c 1 t0) (iblk m c 2 t0) (iblk m c 3 t0)).1)

/-- A point other than 0 does not take the first branch. -/
theorem notInit (t : Fin cfg0.N) (ht : t.val ≠ 0) : ¬condInit (grid0.coords t) := fun h => ht ((hInit t).mp h)

/-- THE ACCUMULATION: what the output buffer holds after the body at position `n`. -/
def outAt (c : Dev nD) : (n : ℕ) → n < cfg0.N → Vec F S32x1024 .f32
  | 0, _ => outInit m c
  | n + 1, hn =>
    if h8 : (n + 1) % 8 = 0 then
      outAssign m c ⟨n + 1, hn⟩ (notInit ⟨n + 1, hn⟩ (Nat.succ_ne_zero n)) ((hAssign ⟨n + 1, hn⟩).mpr h8) (fun h => (hAdd ⟨n + 1, hn⟩).mp h h8) (layerAt m c)
    else
      outAdd m c ⟨n + 1, hn⟩ (notInit ⟨n + 1, hn⟩ (Nat.succ_ne_zero n)) (fun h => h8 ((hAssign ⟨n + 1, hn⟩).mp h)) ((hAdd ⟨n + 1, hn⟩).mpr h8) (layerAt m c) (outAt c n (Nat.lt_of_succ_lt hn))

theorem outAt_zero (c : Dev nD) (t : Fin cfg0.N) (ht : t.val = 0) : outAt m c t.val t.isLt = outInit m c := by
  obtain ⟨n, hn⟩ := t
  cases n with
  | zero => rfl
  | succ n => exact absurd ht (Nat.succ_ne_zero n)

theorem outAt_assign (c : Dev nD) (t : Fin cfg0.N) (ht : t.val ≠ 0) (h8 : t.val % 8 = 0) :
    outAt m c t.val t.isLt = outAssign m c t (notInit t ht) ((hAssign t).mpr h8) (fun h => (hAdd t).mp h h8) (layerAt m c) := by
  obtain ⟨n, hn⟩ := t
  cases n with
  | zero => exact absurd rfl ht
  | succ n => exact (dif_pos h8).trans rfl

theorem outAt_add (c : Dev nD) (t : Fin cfg0.N) (ht : t.val ≠ 0) (h8 : ¬t.val % 8 = 0) :
    outAt m c t.val t.isLt = outAdd m c t (notInit t ht) (fun h => h8 ((hAssign t).mp h)) ((hAdd t).mpr h8) (layerAt m c)
      (outAt m c (t.val - 1) (Nat.lt_of_le_of_lt (Nat.sub_le _ _) t.isLt)) := by
  obtain ⟨n, hn⟩ := t
  cases n with
  | zero => exact absurd rfl ht
  | succ n => exact (dif_neg h8).trans rfl

/-- The region invariant before position `n`: before the first point the scratch at anything, afterwards at the
    regrouped layer; the generator register at some state throughout. -/
def PhiS (c : Dev nD) : (n : ℕ) → n ≤ cfg0.N → sProp 𝕄
  | 0, _ => Pipeline.ΦA spec0 c
  | _ + 1, _ => iprop(iprop(owns (c : Thread nD τ) scM fullShare (layerAt m c)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM fullShare (layerAt m c)) ∗ (∃ r, prngReg c r)) := by
  cases n with
  | zero => exact absurd rfl hz
  | succ n => rfl

/-! ## The pipeline's proof data -/

/-- The proof data of the pipeline on core `c`: the arrays as the region finds them; after the body at point `t`
    each input's buffer at its block and the output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The output window's blocks are never clipped. -/
theorem noClip4 : ∀ (i : cfg0.grid.Coords) a, (cfg0.win 4).clip i a = none := by decide +kernel

/-- The output block is not written back after a point that is not the last tile of its band. -/
theorem noFlushPrev (t : Fin cfg0.N) (ht : t.val ≠ 0) (h8 : ¬t.val % 8 = 0) :
    (cfg0.win 4).flush ⟨t.val - 1, Nat.lt_of_le_of_lt (Nat.sub_le _ _) t.isLt⟩ = false := by
  rw [Bool.eq_false_iff]; intro h
  have := (flush0_4 ⟨t.val - 1, Nat.lt_of_le_of_lt (Nat.sub_le _ _) t.isLt⟩).mp h
  dsimp only at this; omega

/-- Where the output block is added into, the buffer holds what the point before left. -/
theorem before4_kept (c : Dev nD) (t : Fin cfg0.N) (ht : t.val ≠ 0) (h8 : ¬t.val % 8 = 0) (d) :
    (dats m 0 c).before 4 t d = outAt m c (t.val - 1) (Nat.lt_of_le_of_lt (Nat.sub_le _ _) t.isLt) := by
  rw [(dats m 0 c).before_out_kept 4 rfl t ht (noFlushPrev t ht h8) (fun i => by revert i; decide +kernel) noClip4 d, after4]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [liveIn0 t, after0]
theorem leaves1 (c : Dev nD) (t : Fin cfg0.N) : (dats m 0 c).leavesExact 1 t = owns (c : Thread nD τ) (ms1 t) fullShare (iblk m c 1 t) := by
  unfold Dat.leavesExact; rw [liveIn1 t, after1]
theorem leaves2 (c : Dev nD) (t : Fin cfg0.N) : (dats m 0 c).leavesExact 2 t = owns (c : Thread nD τ) (ms2 t) fullShare (iblk m c 2 t) := by
  unfold Dat.leavesExact; rw [liveIn2 t, after2]
theorem leaves3 (c : Dev nD) (t : Fin cfg0.N) : (dats m 0 c).leavesExact 3 t = owns (c : Thread nD τ) (ms3 t) fullShare (iblk m c 3 t) := by
  unfold Dat.leavesExact; rw [liveIn3 t, after3]
theorem leaves4 (c : Dev nD) (t : Fin cfg0.N) : (dats m 0 c).leavesExact 4 t = owns (c : Thread nD τ) (ms4 t) fullShare (outAt m c t.val t.isLt) := by
  unfold Dat.leavesExact; rw [liveOut t, after4]

set_option maxHeartbeats 4800000 in
/-- The body at any point: the inputs' memrefs hold their blocks; the point is the first, a later band start, or
    neither, and the matching run applies; the invariant hands the body the scratch (at anything at the first
    point, at the regrouped layer afterwards) and takes it back at the regrouped layer. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [leaves0, leaves1, leaves2, leaves3, leaves4]
  by_cases hz : t.val = 0
  · obtain rfl : t = t0 := Fin.ext hz
    rw [PhiS_castSucc m c t0, PhiS_zero m c _ _ rfl, PhiA_eq, outAt_zero m c t0 rfl]
    unfold outInit layerAt
    iintro ⟨⟨HS, Hg⟩, Ho, ⟨%d0, H0⟩, ⟨%d1, H1⟩, ⟨%d2, H2⟩, ⟨%d3, H3⟩, ⟨%d4, H4⟩⟩
    iapply ((runInit c (grid0.coords t0) _ _ _ _ _ _ _ _ _ _ _ _ hInit0 hAssign0 hAdd0 (iblk m c 0 t0) (iblk m c 1 t0) (iblk m c 2 t0) (iblk m c 3 t0)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hg]
    · isplitl [HS]
      · unfold owns; iexists _; isplitr
        swap; · iexact HS
        ipureintro; exact View.read_writes_of_cover _ _ _ _ _ (layerCover m c)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (outCoverInit m c)
  · rw [PhiS_castSucc m c t, PhiS_pos m c _ _ hz]
    by_cases h8 : t.val % 8 = 0
    · rw [outAt_assign m c t hz h8]
      unfold outAssign
      iintro ⟨⟨HS, Hg⟩, Ho, ⟨%d0, H0⟩, ⟨%d1, H1⟩, ⟨%d2, H2⟩, ⟨%d3, H3⟩, ⟨%d4, H4⟩⟩
      iapply ((runAssign c (grid0.coords t) _ _ _ _ _ _ _ _ _ _ _ _ (notInit t hz) ((hAssign t).mpr h8) (fun h => (hAdd t).mp h h8) (iblk m c 0 t) (iblk m c 1 t) (iblk m c 2 t) (iblk m c 3 t) (layerAt m c)).2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outCoverAssign m c t _ _ _ _)
    · rw [outAt_add m c t hz h8]
      simp only [before4_kept m c t hz h8]
      unfold outAdd
      iintro ⟨⟨HS, Hg⟩, Ho, ⟨%d0, H0⟩, ⟨%d1, H1⟩, ⟨%d2, H2⟩, ⟨%d3, H3⟩, ⟨%d4, H4⟩⟩
      iapply ((runAdd c (grid0.coords t) _ _ _ _ _ _ _ _ _ _ _ _ (notInit t hz) (fun h => h8 ((hAssign t).mp h)) ((hAdd t).mpr h8) (iblk m c 0 t) (iblk m c 1 t) (iblk m c 2 t) (iblk m c 3 t) (layerAt m c) _).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, ⟨%e4, H4⟩, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outCoverAdd m c t _ _ _ _ _)

/-- The pipeline's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back at some contents. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨HS, Hg⟩
  isplitl [HS]
  · iexists _; iexact HS
  iexact Hg

/-! ## The run and the frame -/

set_option backward.isDefEq.respectTransparency.types false in
/-- From any memory with zero counters every weakly fair execution of the program terminates, nothing faulting,
    with every array of the pipeline at what the proof data's blocks written back make it and every other unscoped
    buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the program runs to the end, faults nowhere, and leaves its argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.IdealBranches.lean ====
/-
  Which grid points take which branch of the kernel body. The grid is 4 × 8, walked in order: point t has
  coordinates (t / 8, t mod 8). The layer is computed into the scratch only at point 0; the output block is
  assigned where t mod 8 = 0 and added into elsewhere. The output window is therefore never idle, is written
  back exactly after the last tile of a row band (t mod 8 = 7), and the tile of the layer the body loads
  starts at row (t mod 8) · 2048.
-/
import proofs.«168233_g16793322127443_cont_week2b_1270_42_alg».proof.Proof.Gen.KernelIdeal.Frame
import proofs.«168233_g16793322127443_cont_week2b_1270_42_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition (both coordinates zero), as the body computes it. -/
abbrev condInit (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem hInit : ∀ t : Fin cfg0.N, condInit (grid0.coords t) ↔ t.val = 0 :=
  (by decide +kernel : ∀ t : Fin grid0.N, condInit (grid0.coords t) ↔ t.val = 0)

/-- The second condition (the tile coordinate is zero): the output block is assigned. -/
abbrev condAssign (i : grid0.Coords) : Prop := k0_cond2 i = 1#1
theorem hAssign : ∀ t : Fin cfg0.N, condAssign (grid0.coords t) ↔ t.val % 8 = 0 :=
  (by decide +kernel : ∀ t : Fin grid0.N, condAssign (grid0.coords t) ↔ t.val % 8 = 0)

/-- The third condition (the tile coordinate is positive): the output block is added into. -/
abbrev condAdd (i : grid0.Coords) : Prop := k0_cond3 i = 1#1
theorem hAdd : ∀ t : Fin cfg0.N, condAdd (grid0.coords t) ↔ ¬ t.val % 8 = 0 :=
  (by decide +kernel : ∀ t : Fin grid0.N, condAdd (grid0.coords t) ↔ ¬ t.val % 8 = 0)

/-- The output window is live at every point: one of the two stores runs. -/
theorem liveOut : ∀ t : Fin cfg0.N, cfg0.idle 4 (grid0.coords t) = false := by decide +kernel
/-- The input windows are never idle. -/
theorem liveIn0 : ∀ t : Fin cfg0.N, cfg0.idle 0 (grid0.coords t) = false := by decide +kernel
theorem liveIn1 : ∀ t : Fin cfg0.N, cfg0.idle 1 (grid0.coords t) = false := by decide +kernel
theorem liveIn2 : ∀ t : Fin cfg0.N, cfg0.idle 2 (grid0.coords t) = false := by decide +kernel
theorem liveIn3 : ∀ t : Fin cfg0.N, cfg0.idle 3 (grid0.coords t) = false := by decide +kernel

/-- The first row of the layer tile the body loads at point t. -/
theorem tileOff : ∀ t : Fin cfg0.N, k0_off1 (grid0.coords t) = ![t.val % 8 * 2048, 0] :=
  (by decide +kernel : ∀ t : Fin grid0.N, k0_off1 (grid0.coords t) = ![t.val % 8 * 2048, 0])

end Cert.KernelIdeal.Hand

end
-- ==== Proof.IdealRuns.lean ====
/-
  The kernel body run whole, once per way its three branches can go. On staging memrefs holding the four input
  blocks, an output buffer and the scratch, the body terminates without a fault and hands everything back:
  the inputs as they were, the output buffer and the scratch with the body's stores written over what they held.
  What is stored is found by running the body: each run carries the list of its stores as its witness.
  * first point: the scratch (at anything) receives the four layer stores, the output buffer (at anything) the
    first tile product;
  * a later band start: the scratch is only read, the output buffer (at anything) receives the tile product;
  * elsewhere: the scratch is only read, the output buffer receives what it held plus the tile product.
-/
import proofs.«168233_g16793322127443_cont_week2b_1270_42_alg».proof.Proof.IdealBranches

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point. -/
noncomputable def runInit (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S1024x2048 .f32) (harg5 : arg5.IsWhole) (arg6 : Memref sig .tc .vmem S32x1024 .f32) (harg6 : arg6.IsWhole) (arg7 : Memref sig .tc .vmem S16384x32 .bf16) (harg7 : arg7.IsWhole)
    (hc1 : condInit i) (hc2 : condAssign i) (hc3 : ¬condAdd i) (x0 : Vec F S4096x128 .f32) (x1 : Vec F S128x128 .f32) (x2 : Vec F S4x1x32 .f32) (x3 : Vec F S1024x2048 .f32) :
    Σ' (L4 : List (View.Piece (Elt F) S32x1024 .f32)), { LS : List (View.Piece (Elt F) S16384x32 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS

set_option maxHeartbeats 4000000 in
/-- The body at a later band start: the scratch holds `h`. -/
noncomputable def runAssign (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S1024x2048 .f32) (harg5 : arg5.IsWhole) (arg6 : Memref sig .tc .vmem S32x1024 .f32) (harg6 : arg6.IsWhole) (arg7 : Memref sig .tc .vmem S16384x32 .bf16) (harg7 : arg7.IsWhole)
    (hc1 : ¬condInit i) (hc2 : condAssign i) (hc3 : ¬condAdd i) (x0 : Vec F S4096x128 .f32) (x1 : Vec F S128x128 .f32) (x2 : Vec F S4x1x32 .f32) (x3 : Vec F S1024x2048 .f32) (h : Vec F S16384x32 .bf16) :
    { L4 : List (View.Piece (Elt F) S32x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare h
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ owns (c : Thread nD τ) arg7 fullShare h) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; isplitr; · ipureintro; exact harg7.read_unread _
    iexact HS

set_option maxHeartbeats 4000000 in
/-- The body elsewhere: the scratch holds `h`, the output buffer `o`. -/
noncomputable def runAdd (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S1024x2048 .f32) (harg5 : arg5.IsWhole) (arg6 : Memref sig .tc .vmem S32x1024 .f32) (harg6 : arg6.IsWhole) (arg7 : Memref sig .tc .vmem S16384x32 .bf16) (harg7 : arg7.IsWhole)
    (hc1 : ¬condInit i) (hc2 : ¬condAssign i) (hc3 : condAdd i) (x0 : Vec F S4096x128 .f32) (x1 : Vec F S128x128 .f32) (x2 : Vec F S4x1x32 .f32) (x3 : Vec F S1024x2048 .f32) (h : Vec F S16384x32 .bf16) (o : Vec F S32x1024 .f32) :
    { L4 : List (View.Piece (Elt F) S32x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare o ∗ owns (c : Thread nD τ) arg7 fullShare h
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ owns (c : Thread nD τ) arg7 fullShare h) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; isplitr; · ipureintro; exact harg7.read_unread _
    iexact HS

end Cert.KernelIdeal.Hand

end
-- ==== Proof.IdealFrame.lean ====
/-
  The frame of the program and what its run leaves in the output array.

  What the buffers hold point by point. The scratch holds anything before point 0 and, from then on, the
  regrouped layer that point 0 stores (four stores of 4096 rows each, which tile it). The output buffer holds,
  after point t, the tile product of point t where t mod 8 = 0 and what point t - 1 left plus the tile product
  elsewhere: between two such points the output window's block index does not move and the block is not
  written back, so the body finds what it left. The input buffers hold their blocks at every point.
  With these as proof data the body's run at each point is the obligation the pipeline asks, and the launch
  theorem gives the run of the whole program: it terminates, faults nowhere, leaves the argument arrays as they
  were and the output array at the blocks written back.
-/
import proofs.«168233_g16793322127443_cont_week2b_1270_42_alg».proof.Proof.IdealRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, and its wholeness. -/
abbrev ms0 (t : Fin cfg0.N) : Memref sig .tc .vmem S4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x1x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S32x1024 .f32 := win0_4.stage (cfg0.slots t 4)
abbrev hs4 (t : Fin cfg0.N) : (ms4 t).IsWhole := hstage0_4 ((cfg0.slots t 4).cast nbuf0_4)
/-- The scratch that holds the regrouped layer: a whole buffer of the kernel's own. -/
abbrev scM : Memref sig .tc .vmem S16384x32 .bf16 := Memref.whole cc0_scratch0
/-- The views through which the scratch's and the output buffer's contents are stated. -/
abbrev VS : View sig .tc .vmem S16384x32 .bf16 := scM.view
abbrev VO : View sig .tc .vmem S32x1024 .f32 := (Memref.whole cc0_stg4_0 : Memref sig .tc .vmem S32x1024 .f32).view

/-- The region's invariant names the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The first point. -/
abbrev t0 : Fin cfg0.N := ⟨0, by decide⟩

theorem hInit0 : condInit (grid0.coords t0) := (hInit t0).mpr rfl
theorem hAssign0 : condAssign (grid0.coords t0) := (hAssign t0).mpr (by decide)
theorem hAdd0 : ¬condAdd (grid0.coords t0) := fun h => (hAdd t0).mp h (by decide)

/-- What point 0 stores into the scratch tiles it: four stores of 4096 rows. -/
theorem layerCover (c : Dev nD) (y : S16384x32.Idx) :
    ∃ pc ∈ (runInit (F := F) c (grid0.coords t0) (ms0 t0) (hs0 t0) (ms1 t0) (hs1 t0) (ms2 t0) (hs2 t0) (ms3 t0) (hs3 t0) (ms4 t0) (hs4 t0) scM (Memref.isWhole_whole _) hInit0 hAssign0 hAdd0 (iblk m c 0 t0) (iblk m c 1 t0) (iblk m c 2 t0) (iblk m c 3 t0)).2.1, y ∈ pc.1.set :=
  View.cover_of_tiledL (runInit (F := F) c (grid0.coords t0) (ms0 t0) (hs0 t0) (ms1 t0) (hs1 t0) (ms2 t0) (hs2 t0) (ms3 t0) (hs3 t0) (ms4 t0) (hs4 t0) scM (Memref.isWhole_whole _) hInit0 hAssign0 hAdd0 (iblk m c 0 t0) (iblk m c 1 t0) (iblk m c 2 t0) (iblk m c 3 t0)).2.1 S4096x32.size (by sl_kernel_rfl) y

/-- THE REGROUPED LAYER as the scratch holds it from point 0 on: point 0's stores read back. -/
def layerAt (c : Dev nD) : Vec F S16384x32 .bf16 :=
  VS.read (Elt F) (VS.writes (Elt F) VS.junk (runInit (F := F) c (grid0.coords t0) (ms0 t0) (hs0 t0) (ms1 t0) (hs1 t0) (ms2 t0) (hs2 t0) (ms3 t0) (hs3 t0) (ms4 t0) (hs4 t0) scM (Memref.isWhole_whole _) hInit0 hAssign0 hAdd0 (iblk m c 0 t0) (iblk m c 1 t0) (iblk m c 2 t0) (iblk m c 3 t0)).2.1)

/-- The one store into the output buffer at point 0 covers it. -/
theorem outCoverInit (c : Dev nD) (y : S32x1024.Idx) :
    ∃ pc ∈ (runInit (F := F) c (grid0.coords t0) (ms0 t0) (hs0 t0) (ms1 t0) (hs1 t0) (ms2 t0) (hs2 t0) (ms3 t0) (hs3 t0) (ms4 t0) (hs4 t0) scM (Memref.isWhole_whole _) hInit0 hAssign0 hAdd0 (iblk m c 0 t0) (iblk m c 1 t0) (iblk m c 2 t0) (iblk m c 3 t0)).1, y ∈ pc.1.set :=
  View.cover_of_tiledL (runInit (F := F) c (grid0.coords t0) (ms0 t0) (hs0 t0) (ms1 t0) (hs1 t0) (ms2 t0) (hs2 t0) (ms3 t0) (hs3 t0) (ms4 t0) (hs4 t0) scM (Memref.isWhole_whole _) hInit0 hAssign0 hAdd0 (iblk m c 0 t0) (iblk m c 1 t0) (iblk m c 2 t0) (iblk m c 3 t0)).1 S32x1024.size (by sl_kernel_rfl) y

/-- The store into the output buffer at a later band start covers it. -/
theorem outCoverAssign (c : Dev nD) (t : Fin cfg0.N) (h1 : ¬condInit (grid0.coords t)) (h2 : condAssign (grid0.coords t)) (h3 : ¬condAdd (grid0.coords t))
    (h : Vec F S16384x32 .bf16) (y : S32x1024.Idx) :
    ∃ pc ∈ (runAssign (F := F) c (grid0.coords t) (ms0 t) (hs0 t) (ms1 t) (hs1 t) (ms2 t) (hs2 t) (ms3 t) (hs3 t) (ms4 t) (hs4 t) scM (Memref.isWhole_whole _) h1 h2 h3 (iblk m c 0 t) (iblk m c 1 t) (iblk m c 2 t) (iblk m c 3 t) h).1, y ∈ pc.1.set :=
  View.cover_of_tiledL (runAssign (F := F) c (grid0.coords t) (ms0 t) (hs0 t) (ms1 t) (hs1 t) (ms2 t) (hs2 t) (ms3 t) (hs3 t) (ms4 t) (hs4 t) scM (Memref.isWhole_whole _) h1 h2 h3 (iblk m c 0 t) (iblk m c 1 t) (iblk m c 2 t) (iblk m c 3 t) h).1 S32x1024.size (by sl_kernel_rfl) y

/-- The store into the output buffer elsewhere covers it. -/
theorem outCoverAdd (c : Dev nD) (t : Fin cfg0.N) (h1 : ¬condInit (grid0.coords t)) (h2 : ¬condAssign (grid0.coords t)) (h3 : condAdd (grid0.coords t))
    (h : Vec F S16384x32 .bf16) (o : Vec F S32x1024 .f32) (y : S32x1024.Idx) :
    ∃ pc ∈ (runAdd (F := F) c (grid0.coords t) (ms0 t) (hs0 t) (ms1 t) (hs1 t) (ms2 t) (hs2 t) (ms3 t) (hs3 t) (ms4 t) (hs4 t) scM (Memref.isWhole_whole _) h1 h2 h3 (iblk m c 0 t) (iblk m c 1 t) (iblk m c 2 t) (iblk m c 3 t) h o).1, y ∈ pc.1.set :=
  View.cover_of_tiledL (runAdd (F := F) c (grid0.coords t) (ms0 t) (hs0 t) (ms1 t) (hs1 t) (ms2 t) (hs2 t) (ms3 t) (hs3 t) (ms4 t) (hs4 t) scM (Memref.isWhole_whole _) h1 h2 h3 (iblk m c 0 t) (iblk m c 1 t) (iblk m c 2 t) (iblk m c 3 t) h o).1 S32x1024.size (by sl_kernel_rfl) y

/-- What the body leaves in the output buffer at a later band start, the scratch holding `h`. -/
def outAssign (c : Dev nD) (t : Fin cfg0.N) (h1 : ¬condInit (grid0.coords t)) (h2 : condAssign (grid0.coords t)) (h3 : ¬condAdd (grid0.coords t))
    (h : Vec F S16384x32 .bf16) : Vec F S32x1024 .f32 :=
  VO.read (Elt F) (VO.writes (Elt F) VO.junk (runAssign (F := F) c (grid0.coords t) (ms0 t) (hs0 t) (ms1 t) (hs1 t) (ms2 t) (hs2 t) (ms3 t) (hs3 t) (ms4 t) (hs4 t) scM (Memref.isWhole_whole _) h1 h2 h3 (iblk m c 0 t) (iblk m c 1 t) (iblk m c 2 t) (iblk m c 3 t) h).1)

/-- What the body leaves in the output buffer elsewhere, the scratch holding `h` and the buffer `o`. -/
def outAdd (c : Dev nD) (t : Fin cfg0.N) (h1 : ¬condInit (grid0.coords t)) (h2 : ¬condAssign (grid0.coords t)) (h3 : condAdd (grid0.coords t))
    (h : Vec F S16384x32 .bf16) (o : Vec F S32x1024 .f32) : Vec F S32x1024 .f32 :=
  VO.read (Elt F) (VO.writes (Elt F) VO.junk (runAdd (F := F) c (grid0.coords t) (ms0 t) (hs0 t) (ms1 t) (hs1 t) (ms2 t) (hs2 t) (ms3 t) (hs3 t) (ms4 t) (hs4 t) scM (Memref.isWhole_whole _) h1 h2 h3 (iblk m c 0 t) (iblk m c 1 t) (iblk m c 2 t) (iblk m c 3 t) h o).1)

/-- What the body leaves in the output buffer at point 0. -/
def outInit (c : Dev nD) : Vec F S32x1024 .f32 :=
  VO.read (Elt F) (VO.writes (Elt F) VO.junk (runInit (F := F) c (grid0.coords t0) (ms0 t0) (hs0 t0) (ms1 t0) (hs1 t0) (ms2 t0) (hs2 t0) (ms3 t0) (hs3 t0) (ms4 t0) (hs4 t0) scM (Memref.isWhole_whole _) hInit0 hAssign0 hAdd0 (iblk m c 0 t0) (iblk m c 1 t0) (iblk m c 2 t0) (iblk m c 3 t0)).1)

/-- A point other than 0 does not take the first branch. -/
theorem notInit (t : Fin cfg0.N) (ht : t.val ≠ 0) : ¬condInit (grid0.coords t) := fun h => ht ((hInit t).mp h)

/-- THE ACCUMULATION: what the output buffer holds after the body at position `n`. -/
def outAt (c : Dev nD) : (n : ℕ) → n < cfg0.N → Vec F S32x1024 .f32
  | 0, _ => outInit m c
  | n + 1, hn =>
    if h8 : (n + 1) % 8 = 0 then
      outAssign m c ⟨n + 1, hn⟩ (notInit ⟨n + 1, hn⟩ (Nat.succ_ne_zero n)) ((hAssign ⟨n + 1, hn⟩).mpr h8) (fun h => (hAdd ⟨n + 1, hn⟩).mp h h8) (layerAt m c)
    else
      outAdd m c ⟨n + 1, hn⟩ (notInit ⟨n + 1, hn⟩ (Nat.succ_ne_zero n)) (fun h => h8 ((hAssign ⟨n + 1, hn⟩).mp h)) ((hAdd ⟨n + 1, hn⟩).mpr h8) (layerAt m c) (outAt c n (Nat.lt_of_succ_lt hn))

theorem outAt_zero (c : Dev nD) (t : Fin cfg0.N) (ht : t.val = 0) : outAt m c t.val t.isLt = outInit m c := by
  obtain ⟨n, hn⟩ := t
  cases n with
  | zero => rfl
  | succ n => exact absurd ht (Nat.succ_ne_zero n)

theorem outAt_assign (c : Dev nD) (t : Fin cfg0.N) (ht : t.val ≠ 0) (h8 : t.val % 8 = 0) :
    outAt m c t.val t.isLt = outAssign m c t (notInit t ht) ((hAssign t).mpr h8) (fun h => (hAdd t).mp h h8) (layerAt m c) := by
  obtain ⟨n, hn⟩ := t
  cases n with
  | zero => exact absurd rfl ht
  | succ n => exact (dif_pos h8).trans rfl

theorem outAt_add (c : Dev nD) (t : Fin cfg0.N) (ht : t.val ≠ 0) (h8 : ¬t.val % 8 = 0) :
    outAt m c t.val t.isLt = outAdd m c t (notInit t ht) (fun h => h8 ((hAssign t).mp h)) ((hAdd t).mpr h8) (layerAt m c)
      (outAt m c (t.val - 1) (Nat.lt_of_le_of_lt (Nat.sub_le _ _) t.isLt)) := by
  obtain ⟨n, hn⟩ := t
  cases n with
  | zero => exact absurd rfl ht
  | succ n => exact (dif_neg h8).trans rfl

/-- The region invariant before position `n`: before the first point the scratch at anything, afterwards at the
    regrouped layer; the generator register at some state throughout. -/
def PhiS (c : Dev nD) : (n : ℕ) → n ≤ cfg0.N → sProp 𝕄
  | 0, _ => Pipeline.ΦA spec0 c
  | _ + 1, _ => iprop(iprop(owns (c : Thread nD τ) scM fullShare (layerAt m c)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM fullShare (layerAt m c)) ∗ (∃ r, prngReg c r)) := by
  cases n with
  | zero => exact absurd rfl hz
  | succ n => rfl

/-! ## The pipeline's proof data -/

/-- The proof data of the pipeline on core `c`: the arrays as the region finds them; after the body at point `t`
    each input's buffer at its block and the output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The output window's blocks are never clipped. -/
theorem noClip4 : ∀ (i : cfg0.grid.Coords) a, (cfg0.win 4).clip i a = none := by decide +kernel

/-- The output block is not written back after a point that is not the last tile of its band. -/
theorem noFlushPrev (t : Fin cfg0.N) (ht : t.val ≠ 0) (h8 : ¬t.val % 8 = 0) :
    (cfg0.win 4).flush ⟨t.val - 1, Nat.lt_of_le_of_lt (Nat.sub_le _ _) t.isLt⟩ = false := by
  rw [Bool.eq_false_iff]; intro h
  have := (flush0_4 ⟨t.val - 1, Nat.lt_of_le_of_lt (Nat.sub_le _ _) t.isLt⟩).mp h
  dsimp only at this; omega

/-- Where the output block is added into, the buffer holds what the point before left. -/
theorem before4_kept (c : Dev nD) (t : Fin cfg0.N) (ht : t.val ≠ 0) (h8 : ¬t.val % 8 = 0) (d) :
    (dats m 0 c).before 4 t d = outAt m c (t.val - 1) (Nat.lt_of_le_of_lt (Nat.sub_le _ _) t.isLt) := by
  rw [(dats m 0 c).before_out_kept 4 rfl t ht (noFlushPrev t ht h8) (fun i => by revert i; decide +kernel) noClip4 d, after4]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [liveIn0 t, after0]
theorem leaves1 (c : Dev nD) (t : Fin cfg0.N) : (dats m 0 c).leavesExact 1 t = owns (c : Thread nD τ) (ms1 t) fullShare (iblk m c 1 t) := by
  unfold Dat.leavesExact; rw [liveIn1 t, after1]
theorem leaves2 (c : Dev nD) (t : Fin cfg0.N) : (dats m 0 c).leavesExact 2 t = owns (c : Thread nD τ) (ms2 t) fullShare (iblk m c 2 t) := by
  unfold Dat.leavesExact; rw [liveIn2 t, after2]
theorem leaves3 (c : Dev nD) (t : Fin cfg0.N) : (dats m 0 c).leavesExact 3 t = owns (c : Thread nD τ) (ms3 t) fullShare (iblk m c 3 t) := by
  unfold Dat.leavesExact; rw [liveIn3 t, after3]
theorem leaves4 (c : Dev nD) (t : Fin cfg0.N) : (dats m 0 c).leavesExact 4 t = owns (c : Thread nD τ) (ms4 t) fullShare (outAt m c t.val t.isLt) := by
  unfold Dat.leavesExact; rw [liveOut t, after4]

set_option maxHeartbeats 4800000 in
/-- The body at any point: the inputs' memrefs hold their blocks; the point is the first, a later band start, or
    neither, and the matching run applies; the invariant hands the body the scratch (at anything at the first
    point, at the regrouped layer afterwards) and takes it back at the regrouped layer. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [leaves0, leaves1, leaves2, leaves3, leaves4]
  by_cases hz : t.val = 0
  · obtain rfl : t = t0 := Fin.ext hz
    rw [PhiS_castSucc m c t0, PhiS_zero m c _ _ rfl, PhiA_eq, outAt_zero m c t0 rfl]
    unfold outInit layerAt
    iintro ⟨⟨HS, Hg⟩, Ho, ⟨%d0, H0⟩, ⟨%d1, H1⟩, ⟨%d2, H2⟩, ⟨%d3, H3⟩, ⟨%d4, H4⟩⟩
    iapply ((runInit c (grid0.coords t0) _ _ _ _ _ _ _ _ _ _ _ _ hInit0 hAssign0 hAdd0 (iblk m c 0 t0) (iblk m c 1 t0) (iblk m c 2 t0) (iblk m c 3 t0)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hg]
    · isplitl [HS]
      · unfold owns; iexists _; isplitr
        swap; · iexact HS
        ipureintro; exact View.read_writes_of_cover _ _ _ _ _ (layerCover m c)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (outCoverInit m c)
  · rw [PhiS_castSucc m c t, PhiS_pos m c _ _ hz]
    by_cases h8 : t.val % 8 = 0
    · rw [outAt_assign m c t hz h8]
      unfold outAssign
      iintro ⟨⟨HS, Hg⟩, Ho, ⟨%d0, H0⟩, ⟨%d1, H1⟩, ⟨%d2, H2⟩, ⟨%d3, H3⟩, ⟨%d4, H4⟩⟩
      iapply ((runAssign c (grid0.coords t) _ _ _ _ _ _ _ _ _ _ _ _ (notInit t hz) ((hAssign t).mpr h8) (fun h => (hAdd t).mp h h8) (iblk m c 0 t) (iblk m c 1 t) (iblk m c 2 t) (iblk m c 3 t) (layerAt m c)).2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outCoverAssign m c t _ _ _ _)
    · rw [outAt_add m c t hz h8]
      simp only [before4_kept m c t hz h8]
      unfold outAdd
      iintro ⟨⟨HS, Hg⟩, Ho, ⟨%d0, H0⟩, ⟨%d1, H1⟩, ⟨%d2, H2⟩, ⟨%d3, H3⟩, ⟨%d4, H4⟩⟩
      iapply ((runAdd c (grid0.coords t) _ _ _ _ _ _ _ _ _ _ _ _ (notInit t hz) (fun h => h8 ((hAssign t).mp h)) ((hAdd t).mpr h8) (iblk m c 0 t) (iblk m c 1 t) (iblk m c 2 t) (iblk m c 3 t) (layerAt m c) _).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, ⟨%e4, H4⟩, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outCoverAdd m c t _ _ _ _ _)

/-- The pipeline's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back at some contents. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨HS, Hg⟩
  isplitl [HS]
  · iexists _; iexact HS
  iexact Hg

/-! ## The run and the frame -/

set_option backward.isDefEq.respectTransparency.types false in
/-- From any memory with zero counters every weakly fair execution of the program terminates, nothing faulting,
    with every array of the pipeline at what the proof data's blocks written back make it and every other unscoped
    buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the program runs to the end, faults nowhere, and leaves its argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.Spec.lean ====
/-
  The specification both programs are compared with, on the extended reals.

  A linear layer over 4096 atoms and 128 output features,
      lin n c = Σ_f af[n, f] · W[c, f] + b[c],
  has its 128 features read as four groups (bond types) of 32. The regrouped layer has one row per pair
  (group t, atom n), row Q = t · 4096 + n, and 32 columns: layer[Q, o] = lin n (t · 32 + o).
  The result is the bond matrix times the regrouped layer: G[r, o] = Σ_Q bi[r, Q] · layer[Q, o].
-/
import Idealize.ShloMosaic.PureOps.Ideal
import Idealize.ShloMosaic.Lib.ValueIdx

noncomputable section

namespace Cert.Spec

open Idealize.ShloMosaic Idealize.ShloMosaic.ValueIdx
open scoped BigOperators

/-- The argument and result shapes, literally. -/
abbrev SAtoms : Shape := ⟨2, ![4096, 128]⟩
abbrev SBonds : Shape := ⟨2, ![4096, 16384]⟩
abbrev SWeight : Shape := ⟨2, ![128, 128]⟩
abbrev SBias : Shape := ⟨1, ![128]⟩
abbrev SResult : Shape := ⟨2, ![4096, 32]⟩

/-- The linear layer at atom `n`, feature `c`. -/
def lin (af : SAtoms.Idx → EReal) (W : SWeight.Idx → EReal) (b : SBias.Idx → EReal) (n : Fin 4096) (c : Fin 128) : EReal :=
  (∑ f : Fin 128, af (ix2 n f) * W (ix2 c f)) + b (ix1 c)

/-- The atom of row `Q` of the regrouped layer: `Q mod 4096`. -/
def atomOf (Q : Fin 16384) : Fin 4096 := ⟨Q.val % 4096, Nat.mod_lt _ (by decide)⟩

/-- The feature read at row `Q`, column `o` of the regrouped layer: `(Q / 4096) · 32 + o`. -/
def featOf (Q : Fin 16384) (o : Fin 32) : Fin 128 := ⟨Q.val / 4096 * 32 + o.val, by have := Q.isLt; have := o.isLt; omega⟩

/-- The regrouped layer. -/
def layer (af : SAtoms.Idx → EReal) (W : SWeight.Idx → EReal) (b : SBias.Idx → EReal) (Q : Fin 16384) (o : Fin 32) : EReal :=
  lin af W b (atomOf Q) (featOf Q o)

/-- The result at row `r`, column `o`. -/
def Gat (af : SAtoms.Idx → EReal) (bi : SBonds.Idx → EReal) (W : SWeight.Idx → EReal) (b : SBias.Idx → EReal)
    (r : Fin 4096) (o : Fin 32) : EReal :=
  ∑ Q : Fin 16384, bi (ix2 r Q) * layer af W b Q o

/-- The result array. -/
def G (af : SAtoms.Idx → EReal) (bi : SBonds.Idx → EReal) (W : SWeight.Idx → EReal) (b : SBias.Idx → EReal) :
    SResult.Idx → EReal :=
  fun j => Gat af bi W b (j 0) (j 1)

theorem G_apply (af : SAtoms.Idx → EReal) (bi : SBonds.Idx → EReal) (W : SWeight.Idx → EReal) (b : SBias.Idx → EReal)
    (r : Fin 4096) (o : Fin 32) : G af bi W b (ix2 r o) = Gat af bi W b r o := rfl

end Cert.Spec

end
-- ==== Proof.SumTiles.lean ====
/-
  A sum over the 16384 rows of the regrouped layer, taken tile by tile: eight tiles of 2048 consecutive rows.
  Addition on the extended reals is commutative and associative, so the regrouping holds with no finiteness.
-/
import Idealize.ShloMosaic.PureOps.Ideal
import Mathlib.Algebra.BigOperators.Fin

noncomputable section

namespace Cert.Spec

open scoped BigOperators

/-- Row `k · 2048 + q` of tile `k`. -/
def tileRow (k : Fin 8) (q : Fin 2048) : Fin 16384 := ⟨k.val * 2048 + q.val, by have := k.isLt; have := q.isLt; omega⟩

/-- A sum over all rows is the sum over the tiles of the sums inside each tile. -/
theorem sum_tiles (f : Fin 16384 → EReal) : ∑ Q : Fin 16384, f Q = ∑ k : Fin 8, ∑ q : Fin 2048, f (tileRow k q) := by
  -- both sides are the sum over the pairs (tile, row inside the tile), carried along the bijection (k, q) ↦ k · 2048 + q
  symm
  rw [← Fintype.sum_prod_type' (f := fun (k : Fin 8) (q : Fin 2048) => f (tileRow k q))]
  refine Fintype.sum_equiv (finProdFinEquiv : Fin 8 × Fin 2048 ≃ Fin 16384) _ _ ?_
  rintro ⟨k, q⟩
  congr 1
  apply Fin.ext
  simp only [tileRow, finProdFinEquiv, Equiv.coe_fn_mk]
  omega

/-- A running total that starts at tile 0 and adds one tile per step is, after step `n`, the sum of tiles `0 … n`. -/
theorem running_total (tile : ℕ → EReal) (acc : ℕ → EReal) (h0 : acc 0 = tile 0)
    (hs : ∀ n, acc (n + 1) = acc n + tile (n + 1)) (n : ℕ) : acc n = ∑ k ∈ Finset.range (n + 1), tile k := by
  induction n with
  | zero => simp [h0]
  | succ n ih => rw [hs, ih, Finset.sum_range_succ _ (n + 1)]

end Cert.Spec

end
-- ==== Proof.IdealArgs.lean ====
/-
  Names for the value side, on the extended reals: the four argument arrays as launched; the band (row block of
  1024 result rows) and the tile (2048 rows of the regrouped layer) of a grid point, point t being tile t mod 8 of
  band t / 8; and the product of one layer tile with the matching tile of the bond matrix.
-/
import proofs.«168233_g16793322127443_cont_week2b_1270_42_alg».proof.Proof.IdealFrame
import proofs.«168233_g16793322127443_cont_week2b_1270_42_alg».proof.Proof.Spec
import proofs.«168233_g16793322127443_cont_week2b_1270_42_alg».proof.Proof.SumTiles

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Spec
open scoped BigOperators

variable (m : (ℓ : Loc nD τ sig) → Buf (Elt Ideal) ℓ)

/-- The argument arrays as launched on core `c`. -/
abbrev atoms (c : Dev nD) : Vec Ideal S4096x128 .f32 := m ((c : Thread nD τ).loc main_arg0)
abbrev bonds (c : Dev nD) : Vec Ideal S4096x16384 .f32 := m ((c : Thread nD τ).loc main_arg1)
abbrev weight (c : Dev nD) : Vec Ideal S128x128 .f32 := m ((c : Thread nD τ).loc main_arg2)
abbrev bias (c : Dev nD) : Vec Ideal S128 .f32 := m ((c : Thread nD τ).loc main_arg3)

/-- The band and the tile of a grid point. -/
def bandOf (t : Fin cfg0.N) : Fin 4 := ⟨t.val / 8, by have := t.isLt; have h : cfg0.N = 32 := N_0; omega⟩
def tileOf (t : Fin cfg0.N) : Fin 8 := ⟨t.val % 8, Nat.mod_lt _ (by decide)⟩

/-- Row `i · 1024 + r` of the result: row `r` of band `i`. -/
def bandRow (i : Fin 4) (r : Fin 1024) : Fin 4096 := ⟨i.val * 1024 + r.val, by have := i.isLt; have := r.isLt; omega⟩

/-- Tile `k` of a layer `h` against tile `k` of band `i` of the bond matrix, at feature `o` and row `r` of the band. -/
def tileProd (h : Vec Ideal S16384x32 .bf16) (bi : Vec Ideal S4096x16384 .f32) (i : Fin 4) (k : Fin 8) (o : Fin 32) (r : Fin 1024) : EReal :=
  ∑ q : Fin 2048, h (ix2 (tileRow k q) o) * bi (ix2 (bandRow i r) (tileRow k q))

end Cert.KernelIdeal.Hand

end
-- ==== Proof.KernelPayloads.lean ====
/-
  The kernel body's stored values, read at an index on the extended reals. A change of float format is the identity
  there and a matrix product into a zero accumulator is the plain sum over the contracted axis, so:
  each of the four layer stores holds, at (n, o), Σ_f af[n, f] · W[t · 32 + o, f] + bias[t, 0, o];
  the tile product holds, at (o, r), Σ_q h[q, o] · bi[r, q]; and the accumulating store adds that to what was there.
-/
import proofs.«168233_g16793322127443_cont_week2b_1270_42_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Idealize.ShloMosaic Idealize.ShloMosaic.ValueIdx Cert.KernelIdeal Cert.KernelIdeal.Gen
open scoped BigOperators

variable [Cert.KernelIdeal.Facts]

/-- Row `g · 32 + o` of the weight matrix: feature `o` of group `g`. -/
def wRow (g : Fin 4) (o : Fin 32) : Fin 128 := ⟨g.val * 32 + o.val, by have := g.isLt; have := o.isLt; omega⟩

/-! ## The layer product: rows of the atom block against rows of a weight slice

The product contracts axis 1 of both operands; the result's axis 0 is the left operand's axis 0 and its axis 1 the right
operand's axis 0. The four facts below read the two operand indices on each axis. -/

theorem lhs_layer_0 (i : S4096x32.Idx) (q : dot_S4096x128_S32x128_S4096x32_1_1_0_0_n_n.contr.Idx) :
    (dot_S4096x128_S32x128_S4096x32_1_1_0_0_n_n.lhsIdx i q 0).val = (i 0).val := by
  unfold DotDims.lhsIdx
  rw [dif_neg (show ¬(0 : Fin S4096x128.rank) ∈ dot_S4096x128_S32x128_S4096x32_1_1_0_0_n_n.lhsBatch by decide), dif_pos (show (0 : Fin S4096x128.rank) ∈ dot_S4096x128_S32x128_S4096x32_1_1_0_0_n_n.lhsNonContracting by decide)]
  rfl
theorem lhs_layer_1 (i : S4096x32.Idx) (q : dot_S4096x128_S32x128_S4096x32_1_1_0_0_n_n.contr.Idx) :
    (dot_S4096x128_S32x128_S4096x32_1_1_0_0_n_n.lhsIdx i q 1).val = (q ⟨0, by decide⟩).val :=
  dot_S4096x128_S32x128_S4096x32_1_1_0_0_n_n.lhsIdx_val_of_single rfl i q
theorem rhs_layer_0 (i : S4096x32.Idx) (q : dot_S4096x128_S32x128_S4096x32_1_1_0_0_n_n.contr.Idx) :
    (dot_S4096x128_S32x128_S4096x32_1_1_0_0_n_n.rhsIdx i q 0).val = (i 1).val := by
  unfold DotDims.rhsIdx
  rw [dif_neg (show ¬(0 : Fin S32x128.rank) ∈ dot_S4096x128_S32x128_S4096x32_1_1_0_0_n_n.rhsBatch by decide), dif_pos (show (0 : Fin S32x128.rank) ∈ dot_S4096x128_S32x128_S4096x32_1_1_0_0_n_n.rhsNonContracting by decide)]
  rfl
theorem rhs_layer_1 (i : S4096x32.Idx) (q : dot_S4096x128_S32x128_S4096x32_1_1_0_0_n_n.contr.Idx) :
    (dot_S4096x128_S32x128_S4096x32_1_1_0_0_n_n.rhsIdx i q 1).val = (q ⟨0, by decide⟩).val :=
  dot_S4096x128_S32x128_S4096x32_1_1_0_0_n_n.rhsIdx_val_of_single rfl i q

/-- The layer product into a zero accumulator, at (n, o): the sum over the 128 features. -/
theorem layer_matmul_apply (a : FVec Ideal S4096x128 .bf16) (b : FVec Ideal S32x128 .bf16) (n : Fin 4096) (o : Fin 32) :
    matmul (F := Ideal) dot_S4096x128_S32x128_S4096x32_1_1_0_0_n_n none a b (constant (F := Ideal) S4096x32 .f32 0x00000000#32) (ix2 n o)
      = ∑ f : Fin 128, a (ix2 n f) * b (ix2 o f) := by
  simp only [matmul]
  rw [Ideal.matmul_constant_zero_apply, ← Equiv.sum_comp (contrEquiv1 dot_S4096x128_S32x128_S4096x32_1_1_0_0_n_n 128 rfl rfl).symm]
  refine Finset.sum_congr rfl fun k _ => ?_
  have hk := contrEquiv1_symm_val dot_S4096x128_S32x128_S4096x32_1_1_0_0_n_n 128 rfl rfl k
  have el : dot_S4096x128_S32x128_S4096x32_1_1_0_0_n_n.lhsIdx (ix2 n o) ((contrEquiv1 dot_S4096x128_S32x128_S4096x32_1_1_0_0_n_n 128 rfl rfl).symm k) = ix2 n k := funext fun a => Fin.ext (by
    match a with
    | ⟨0, _⟩ => exact lhs_layer_0 _ _
    | ⟨1, _⟩ => exact (lhs_layer_1 _ _).trans hk)
  have er : dot_S4096x128_S32x128_S4096x32_1_1_0_0_n_n.rhsIdx (ix2 n o) ((contrEquiv1 dot_S4096x128_S32x128_S4096x32_1_1_0_0_n_n 128 rfl rfl).symm k) = ix2 o k := funext fun a => Fin.ext (by
    match a with
    | ⟨0, _⟩ => exact rhs_layer_0 _ _
    | ⟨1, _⟩ => exact (rhs_layer_1 _ _).trans hk)
  rw [el, er]

/-! ## The tile product: columns of the layer tile against rows of the bond tile

The product contracts axis 0 of the left operand with axis 1 of the right; the result's axis 0 is the left operand's
axis 1 and its axis 1 the right operand's axis 0. -/

theorem lhs_tile_0 (i : S32x1024.Idx) (q : dot_S2048x32_S1024x2048_S32x1024_0_1_1_0_n_n.contr.Idx) :
    (dot_S2048x32_S1024x2048_S32x1024_0_1_1_0_n_n.lhsIdx i q 0).val = (q ⟨0, by decide⟩).val :=
  dot_S2048x32_S1024x2048_S32x1024_0_1_1_0_n_n.lhsIdx_val_of_single rfl i q
theorem lhs_tile_1 (i : S32x1024.Idx) (q : dot_S2048x32_S1024x2048_S32x1024_0_1_1_0_n_n.contr.Idx) :
    (dot_S2048x32_S1024x2048_S32x1024_0_1_1_0_n_n.lhsIdx i q 1).val = (i 0).val := by
  unfold DotDims.lhsIdx
  rw [dif_neg (show ¬(1 : Fin S2048x32.rank) ∈ dot_S2048x32_S1024x2048_S32x1024_0_1_1_0_n_n.lhsBatch by decide), dif_pos (show (1 : Fin S2048x32.rank) ∈ dot_S2048x32_S1024x2048_S32x1024_0_1_1_0_n_n.lhsNonContracting by decide)]
  rfl
theorem rhs_tile_0 (i : S32x1024.Idx) (q : dot_S2048x32_S1024x2048_S32x1024_0_1_1_0_n_n.contr.Idx) :
    (dot_S2048x32_S1024x2048_S32x1024_0_1_1_0_n_n.rhsIdx i q 0).val = (i 1).val := by
  unfold DotDims.rhsIdx
  rw [dif_neg (show ¬(0 : Fin S1024x2048.rank) ∈ dot_S2048x32_S1024x2048_S32x1024_0_1_1_0_n_n.rhsBatch by decide), dif_pos (show (0 : Fin S1024x2048.rank) ∈ dot_S2048x32_S1024x2048_S32x1024_0_1_1_0_n_n.rhsNonContracting by decide)]
  rfl
theorem rhs_tile_1 (i : S32x1024.Idx) (q : dot_S2048x32_S1024x2048_S32x1024_0_1_1_0_n_n.contr.Idx) :
    (dot_S2048x32_S1024x2048_S32x1024_0_1_1_0_n_n.rhsIdx i q 1).val = (q ⟨0, by decide⟩).val :=
  dot_S2048x32_S1024x2048_S32x1024_0_1_1_0_n_n.rhsIdx_val_of_single rfl i q

/-- The tile product into a zero accumulator, at (o, r): the sum over the 2048 rows of the layer tile. -/
theorem tile_matmul_apply (a : FVec Ideal S2048x32 .bf16) (b : FVec Ideal S1024x2048 .bf16) (o : Fin 32) (r : Fin 1024) :
    matmul (F := Ideal) dot_S2048x32_S1024x2048_S32x1024_0_1_1_0_n_n none a b (constant (F := Ideal) S32x1024 .f32 0x00000000#32) (ix2 o r)
      = ∑ q : Fin 2048, a (ix2 q o) * b (ix2 r q) := by
  simp only [matmul]
  rw [Ideal.matmul_constant_zero_apply, ← Equiv.sum_comp (contrEquiv1 dot_S2048x32_S1024x2048_S32x1024_0_1_1_0_n_n 2048 rfl rfl).symm]
  refine Finset.sum_congr rfl fun k _ => ?_
  have hk := contrEquiv1_symm_val dot_S2048x32_S1024x2048_S32x1024_0_1_1_0_n_n 2048 rfl rfl k
  have el : dot_S2048x32_S1024x2048_S32x1024_0_1_1_0_n_n.lhsIdx (ix2 o r) ((contrEquiv1 dot_S2048x32_S1024x2048_S32x1024_0_1_1_0_n_n 2048 rfl rfl).symm k) = ix2 k o := funext fun a => Fin.ext (by
    match a with
    | ⟨0, _⟩ => exact (lhs_tile_0 _ _).trans hk
    | ⟨1, _⟩ => exact lhs_tile_1 _ _)
  have er : dot_S2048x32_S1024x2048_S32x1024_0_1_1_0_n_n.rhsIdx (ix2 o r) ((contrEquiv1 dot_S2048x32_S1024x2048_S32x1024_0_1_1_0_n_n 2048 rfl rfl).symm k) = ix2 r k := funext fun a => Fin.ext (by
    match a with
    | ⟨0, _⟩ => exact rhs_tile_0 _ _
    | ⟨1, _⟩ => exact (rhs_tile_1 _ _).trans hk)
  rw [el, er]

/-! ## The weight slices and the bias row -/

/-- A block of 32 rows of the weight matrix from row `off`, after the format change, read at an index. -/
theorem wslice_apply (off : Nat) (v19 : Vec Ideal S128x128 .f32) (hs : S128x128.Slices ![off, 0] S32x128)
    (o : Fin 32) (f : Fin 128) (k : Fin 128) (hk : k.val = off + o.val) :
    extractStridedSlice S32x128 ![off, 0] (k0_pay5 (F := Ideal) v19) hs (ix2 o f) = v19 (ix2 k f) :=
  slice2_axis0_apply off (k0_pay5 (F := Ideal) v19) hs o f k hk

/-- The bias row laid along every row of the block, read at an index. -/
theorem bias_apply (b : Vec Ideal S1x1x32 .f32) (h1 : S1x1x32.ShapeCasts S1x32) (h2 : S1x32.Broadcasts S4096x32)
    (n : Fin 4096) (o : Fin 32) :
    broadcastTo S4096x32 (shapeCast S1x32 b h1) h2 (ix2 n o) = b (ix3 (0 : Fin 1) (0 : Fin 1) o) :=
  (broadcastTo_1b_ab_apply (shapeCast S1x32 b h1) h2 n o).trans (shapeCast_1ab_ab_apply b h1 (0 : Fin 1) o)

/-- A layer store over a weight slice `w` and a bias block `b`: the product plus the bias row; the format changes and the
    cast to the same shape are the identity. -/
theorem layer_apply (a : FVec Ideal S4096x128 .bf16) (w : FVec Ideal S32x128 .bf16) (b : Vec Ideal S1x1x32 .f32)
    (h0 : S4096x32.ShapeCasts S4096x32) (h1 : S1x1x32.ShapeCasts S1x32) (h2 : S1x32.Broadcasts S4096x32)
    (hb : FTy.bits .bf16 < FTy.bits .f32) (n : Fin 4096) (o : Fin 32) :
    shapeCast S4096x32 (truncf .bf16 (addf (matmul (F := Ideal) dot_S4096x128_S32x128_S4096x32_1_1_0_0_n_n none a w (constant (F := Ideal) S4096x32 .f32 0x00000000#32))
        (broadcastTo S4096x32 (shapeCast S1x32 b h1) h2)) hb) h0 (ix2 n o)
      = (∑ f : Fin 128, a (ix2 n f) * w (ix2 o f)) + b (ix3 (0 : Fin 1) (0 : Fin 1) o) := by
  rw [shapeCast_self, truncf_apply, addf_apply, layer_matmul_apply, bias_apply]

/-! ## The stored values -/

/-- The format change of the atom block is the identity. -/
theorem pay4_eq (v17 : Vec Ideal S4096x128 .f32) : k0_pay4 (F := Ideal) v17 = v17 := by
  rfl

/-- The last group's weight rows, read at an index. -/
theorem pay9_apply (v19 : Vec Ideal S128x128 .f32) (o : Fin 32) (f : Fin 128) :
    k0_pay9 (F := Ideal) v19 (ix2 o f) = v19 (ix2 (wRow 3 o) f) := by
  unfold k0_pay9
  exact wslice_apply 96 v19 _ o f (wRow 3 o) rfl

/-- The layer store of group 0. -/
theorem pay6_apply (v17 : Vec Ideal S4096x128 .f32) (v19 : Vec Ideal S128x128 .f32) (v23 : Vec Ideal S1x1x32 .f32)
    (n : Fin 4096) (o : Fin 32) :
    k0_pay6 (F := Ideal) v17 v19 v23 (ix2 n o)
      = (∑ f : Fin 128, v17 (ix2 n f) * v19 (ix2 (wRow 0 o) f)) + v23 (ix3 (0 : Fin 1) (0 : Fin 1) o) := by
  unfold k0_pay6
  rw [layer_apply]
  refine congrArg (· + _) (Finset.sum_congr rfl fun f _ => ?_)
  rw [wslice_apply 0 v19 _ o f (wRow 0 o) (by show (0 : Fin 4).val * 32 + o.val = 0 + o.val; rfl)]
  rfl

/-- The layer store of group 1. -/
theorem pay7_apply (v17 : Vec Ideal S4096x128 .f32) (v19 : Vec Ideal S128x128 .f32) (v33 : Vec Ideal S1x1x32 .f32)
    (n : Fin 4096) (o : Fin 32) :
    k0_pay7 (F := Ideal) v17 v19 v33 (ix2 n o)
      = (∑ f : Fin 128, v17 (ix2 n f) * v19 (ix2 (wRow 1 o) f)) + v33 (ix3 (0 : Fin 1) (0 : Fin 1) o) := by
  unfold k0_pay7
  rw [layer_apply]
  refine congrArg (· + _) (Finset.sum_congr rfl fun f _ => ?_)
  rw [wslice_apply 32 v19 _ o f (wRow 1 o) rfl]
  rfl

/-- The layer store of group 2. -/
theorem pay8_apply (v17 : Vec Ideal S4096x128 .f32) (v19 : Vec Ideal S128x128 .f32) (v43 : Vec Ideal S1x1x32 .f32)
    (n : Fin 4096) (o : Fin 32) :
    k0_pay8 (F := Ideal) v17 v19 v43 (ix2 n o)
      = (∑ f : Fin 128, v17 (ix2 n f) * v19 (ix2 (wRow 2 o) f)) + v43 (ix3 (0 : Fin 1) (0 : Fin 1) o) := by
  unfold k0_pay8
  rw [layer_apply]
  refine congrArg (· + _) (Finset.sum_congr rfl fun f _ => ?_)
  rw [wslice_apply 64 v19 _ o f (wRow 2 o) rfl]
  rfl

/-- The layer store of group 3, over the values the first part hands on. -/
theorem pay1_apply (v18 : FVec Ideal S4096x128 .bf16) (v51 : FVec Ideal S32x128 .bf16) (v53 : Vec Ideal S1x1x32 .f32)
    (n : Fin 4096) (o : Fin 32) :
    k0_pay1 (F := Ideal) v18 v51 v53 (ix2 n o)
      = (∑ f : Fin 128, v18 (ix2 n f) * v51 (ix2 o f)) + v53 (ix3 (0 : Fin 1) (0 : Fin 1) o) := by
  unfold k0_pay1
  exact layer_apply v18 v51 v53 _ _ _ _ n o

/-- The tile product: rows of the layer tile against a row of the bond tile. -/
theorem pay2_apply (v7 : Vec Ideal S2048x32 .bf16) (v8 : Vec Ideal S1024x2048 .f32) (o : Fin 32) (r : Fin 1024) :
    k0_pay2 (F := Ideal) v7 v8 (ix2 o r) = ∑ q : Fin 2048, v7 (ix2 q o) * v8 (ix2 r q) := by
  unfold k0_pay2
  exact tile_matmul_apply v7 _ o r

/-- The accumulating store: what was there plus the tile product. -/
theorem pay3_apply (v7 : Vec Ideal S2048x32 .bf16) (v8 : Vec Ideal S1024x2048 .f32) (v17 : Vec Ideal S32x1024 .f32)
    (o : Fin 32) (r : Fin 1024) :
    k0_pay3 (F := Ideal) v7 v8 v17 (ix2 o r) = v17 (ix2 o r) + k0_pay2 (F := Ideal) v7 v8 (ix2 o r) := by
  unfold k0_pay3
  rw [shapeCast_self, addf_apply]

end Cert.KernelIdeal.Payloads

end
-- ==== Proof.IdealTiles.lean ====
/-
  What one run of the body leaves in the output buffer, read at an index: the product of the point's layer tile
  with the point's block of the bond matrix, assigned or added to what was there.
-/
import proofs.«168233_g16793322127443_cont_week2b_1270_42_alg».proof.Proof.IdealArgs
import proofs.«168233_g16793322127443_cont_week2b_1270_42_alg».proof.Proof.KernelPayloads

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Spec
open Cert.KernelIdeal.Payloads
open scoped BigOperators

variable (m : (ℓ : Loc nD τ sig) → Buf (Elt Ideal) ℓ)

theorem zeroOff2 : (![0, 0] : Fin 2 → Nat) = fun _ => 0 := funext fun a => by fin_cases a <;> rfl

/-- The bond window's block index at point `t`: band `t / 8`, tile `t mod 8`. -/
theorem bondsIndex : ∀ t : Fin cfg0.N, win0_3.index t (0 : Fin 2) = t.val / 8 ∧ win0_3.index t (1 : Fin 2) = t.val % 8 :=
  (by decide +kernel : ∀ t : Fin grid0.N, win0_3.index t (0 : Fin 2) = t.val / 8 ∧ win0_3.index t (1 : Fin 2) = t.val % 8)

/-- The bond matrix's block at point `t`: rows of band `t / 8`, columns of tile `t mod 8`. -/
theorem bondsBlock (c : Dev nD) (t : Fin cfg0.N) (r : Fin 1024) (q : Fin 2048) :
    iblk (F := Ideal) m c 3 t (ix2 r q) = bonds m c (ix2 (bandRow (bandOf t) r) (tileRow (tileOf t) q)) := by
  obtain ⟨e0, e1⟩ := bondsIndex t
  show V m c main_arg1 (((cfg0.win 3).blk t).view.emb (ix2 r q)) = _
  rw [V_main_arg1]
  refine congrArg _ (funext fun a => Fin.ext ?_)
  match a with
  | ⟨0, _⟩ => show win0_3.index t (0 : Fin 2) * 1024 + 1 * r.val = t.val / 8 * 1024 + r.val; omega
  | ⟨1, _⟩ => show win0_3.index t (1 : Fin 2) * 2048 + 1 * q.val = t.val % 8 * 2048 + q.val; omega

/-- The layer tile the body loads at point `t`: rows `(t mod 8) · 2048 + q` of the scratch. -/
theorem tileLoad (h : Vec Ideal S16384x32 .bf16) (t : Fin cfg0.N) (q : Fin 2048) (o : Fin 32) :
    View.ld h (Rect.unit (s := S16384x32) (k0_off1 (grid0.coords t)) S2048x32.size (k0_off1_inb (grid0.coords t))) (ix2 q o)
      = h (ix2 (tileRow (tileOf t) q) o) := by
  have e := tileOff t
  show h _ = h _
  refine congrArg h (funext fun a => Fin.ext ?_)
  match a with
  | ⟨0, _⟩ => show k0_off1 (grid0.coords t) 0 + 1 * q.val = t.val % 8 * 2048 + q.val; rw [e]; show t.val % 8 * 2048 + 1 * q.val = _; omega
  | ⟨1, _⟩ => show k0_off1 (grid0.coords t) 1 + 1 * o.val = o.val; rw [e]; show 0 + 1 * o.val = _; omega

/-- The scratch read back through its whole view is what it was filled with. -/
theorem scratchRead (h : Vec Ideal S16384x32 .bf16) :
    View.read (Elt Ideal) (View.whole cc0_scratch0) ((Memref.isWhole_whole cc0_scratch0).unread h) = h :=
  (Memref.isWhole_whole cc0_scratch0).read_unread h

/-- A tile product from the two loaded blocks. -/
theorem tileProd_of_loads (c : Dev nD) (t : Fin cfg0.N) (h : Vec Ideal S16384x32 .bf16) (o : Fin 32) (r : Fin 1024) :
    k0_pay2 (F := Ideal) (View.ld h (Rect.unit (s := S16384x32) (k0_off1 (grid0.coords t)) S2048x32.size (k0_off1_inb (grid0.coords t))))
        (iblk (F := Ideal) m c 3 t) (ix2 o r)
      = tileProd h (bonds m c) (bandOf t) (tileOf t) o r := by
  rw [pay2_apply]
  unfold tileProd
  refine Finset.sum_congr rfl fun q _ => ?_
  rw [tileLoad h t q o, bondsBlock m c t r q]

/-- A later band start assigns its tile product. -/
theorem outAssign_apply (c : Dev nD) (t : Fin cfg0.N) (h1 : ¬condInit (grid0.coords t)) (h2 : condAssign (grid0.coords t)) (h3 : ¬condAdd (grid0.coords t))
    (h : Vec Ideal S16384x32 .bf16) (o : Fin 32) (r : Fin 1024) :
    outAssign (F := Ideal) m c t h1 h2 h3 h (ix2 o r) = tileProd h (bonds m c) (bandOf t) (tileOf t) o r := by
  unfold outAssign
  rw [View.read_writes_junk_eq_canon]
  unfold runAssign; dsimp only
  rw [View.canon_unit_zero zeroOff2]
  simp only [View.readAt_eq_ld, Memref.IsWhole.read_unread, scratchRead, View.ld_unit_zero (S := S1024x2048) zeroOff2]
  exact tileProd_of_loads m c t h o r

/-- Elsewhere the tile product is added to what the buffer held. -/
theorem outAdd_apply (c : Dev nD) (t : Fin cfg0.N) (h1 : ¬condInit (grid0.coords t)) (h2 : ¬condAssign (grid0.coords t)) (h3 : condAdd (grid0.coords t))
    (h : Vec Ideal S16384x32 .bf16) (o' : Vec Ideal S32x1024 .f32) (o : Fin 32) (r : Fin 1024) :
    outAdd (F := Ideal) m c t h1 h2 h3 h o' (ix2 o r) = o' (ix2 o r) + tileProd h (bonds m c) (bandOf t) (tileOf t) o r := by
  unfold outAdd
  rw [View.read_writes_junk_eq_canon]
  unfold runAdd; dsimp only
  rw [View.canon_unit_zero zeroOff2]
  simp only [View.readAt_eq_ld, Memref.IsWhole.read_unread, scratchRead, View.ld_unit_zero (S := S1024x2048) zeroOff2, View.ld_unit_zero (S := S32x1024) zeroOff2]
  rw [pay3_apply]
  exact congrArg (o' (ix2 o r) + ·) (tileProd_of_loads m c t h o r)

/-- The first point assigns the first tile product of band 0. -/
theorem outInit_apply (c : Dev nD) (o : Fin 32) (r : Fin 1024) :
    outInit (F := Ideal) m c (ix2 o r) = tileProd (layerAt m c) (bonds m c) (bandOf t0) (tileOf t0) o r := by
  unfold outInit layerAt
  rw [View.read_writes_junk_eq_canon, View.read_writes_junk_eq_canon]
  unfold runInit; dsimp only
  rw [View.canon_unit_zero zeroOff2]
  unfold runInit.sl.v7
  simp only [View.readAt_eq_ld, View.read_writes_junk_eq_canon, Memref.IsWhole.read_unread, View.ld_unit_zero (S := S1024x2048) zeroOff2]
  exact tileProd_of_loads m c t0 _ o r

end Cert.KernelIdeal.Hand

end
-- ==== Proof.IdealLayer.lean ====
/-
  What the scratch holds from the first point on is the regrouped layer of the specification: its four stores are
  the four bond types' linear layers, each over all atoms, laid one after the other (4096 rows each).
-/
import proofs.«168233_g16793322127443_cont_week2b_1270_42_alg».proof.Proof.IdealArgs
import proofs.«168233_g16793322127443_cont_week2b_1270_42_alg».proof.Proof.KernelPayloads

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Spec
open scoped BigOperators Cert.KernelIdeal.Payloads

variable (m : (ℓ : Loc nD τ sig) → Buf (Elt Ideal) ℓ)

namespace Layer

/-! ## The input blocks at the first point -/

/-- The three small inputs are staged whole: their block index is zero on every axis, at every point. -/
theorem idx_whole : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0 :=
  (by decide +kernel : ∀ t : Fin grid0.N, _)

/-- The atom block is the atom array. -/
theorem blk_atoms (c : Dev nD) (n : Fin 4096) (f : Fin 128) :
    iblk (F := Ideal) m c 0 t0 (ix2 n f) = atoms m c (ix2 n f) := by
  obtain ⟨e0, e1, -, -, -, -, -⟩ := idx_whole t0
  show V m c main_arg0 (((cfg0.win 0).blk t0).view.emb (ix2 n f)) = _
  rw [V_main_arg0]
  refine congrArg _ (funext fun a => Fin.ext ?_)
  match a with
  | ⟨0, _⟩ => show win0_0.index t0 (0 : Fin 2) * 4096 + 1 * n.val = n.val; omega
  | ⟨1, _⟩ => show win0_0.index t0 (1 : Fin 2) * 128 + 1 * f.val = f.val; omega

/-- The weight block is the weight array. -/
theorem blk_weight (c : Dev nD) (k : Fin 128) (f : Fin 128) :
    iblk (F := Ideal) m c 1 t0 (ix2 k f) = weight m c (ix2 k f) := by
  obtain ⟨-, -, e0, e1, -, -, -⟩ := idx_whole t0
  show V m c main_arg2 (((cfg0.win 1).blk t0).view.emb (ix2 k f)) = _
  rw [V_main_arg2]
  refine congrArg _ (funext fun a => Fin.ext ?_)
  match a with
  | ⟨0, _⟩ => show win0_1.index t0 (0 : Fin 2) * 128 + 1 * k.val = k.val; omega
  | ⟨1, _⟩ => show win0_1.index t0 (1 : Fin 2) * 128 + 1 * f.val = f.val; omega

/-- The bias as the region finds it: the bias vector read as four rows of 32. -/
theorem bias_reshaped (c : Dev nD) :
    (V m c main_v0 : S4x1x32.Idx → EReal) = shapeCast S4x1x32 (m ((c : Thread nD τ).loc main_arg3)) shapeCasts_S128_S4x1x32 := by
  show StableHlo.after hostOps0 (fun b => m (c, b)) (Proc.devRef .tc main_v0) = _
  after_results
  rfl

/-- The bias block at (g, 0, o) is the bias of feature g · 32 + o. -/
theorem blk_bias (c : Dev nD) (g : Fin 4) (o : Fin 32) :
    iblk (F := Ideal) m c 2 t0 (ix3 g (0 : Fin 1) o) = bias m c (ix1 (Cert.KernelIdeal.Payloads.wRow g o)) := by
  obtain ⟨-, -, -, -, e0, e1, e2⟩ := idx_whole t0
  show V m c main_v0 (((cfg0.win 2).blk t0).view.emb (ix3 g (0 : Fin 1) o)) = _
  have e : ((cfg0.win 2).blk t0).view.emb (ix3 g (0 : Fin 1) o) = ix3 g (0 : Fin 1) o := by
    funext a; apply Fin.ext
    match a with
    | ⟨0, _⟩ => show win0_2.index t0 (0 : Fin 3) * 4 + 1 * g.val = g.val; omega
    | ⟨1, _⟩ => show win0_2.index t0 (1 : Fin 3) * 1 + 1 * 0 = 0; omega
    | ⟨2, _⟩ => show win0_2.index t0 (2 : Fin 3) * 32 + 1 * o.val = o.val; omega
  rw [e, bias_reshaped]
  refine shapeCast_apply _ _ _ (ix1 (Cert.KernelIdeal.Payloads.wRow g o)) ?_
  show (S128.rowMajor (ix1 (Cert.KernelIdeal.Payloads.wRow g o))).val = (S4x1x32.rowMajor (ix3 g (0 : Fin 1) o)).val
  rw [Shape.rowMajor_val_one, Shape.rowMajor_val_three]
  show g.val * 32 + o.val = (g.val * 1 + 0) * 32 + o.val
  omega

/-! ## The four stores are the four groups of the specification's layer -/

/-- The regrouped layer of the specification as a function of the scratch's index. -/
def layerFn (af : Vec Ideal S4096x128 .f32) (W : Vec Ideal S128x128 .f32) (b : Vec Ideal S128 .f32) : Vec Ideal S16384x32 .bf16 :=
  fun y => Cert.Spec.layer af W b (y 0) (y 1)

/-- Row g · 4096 + n of the regrouped layer is atom n against the weight rows of group g. -/
theorem layer_at_group (af : Vec Ideal S4096x128 .f32) (W : Vec Ideal S128x128 .f32) (b : Vec Ideal S128 .f32)
    (g : Fin 4) (n : Fin 4096) (o : Fin 32) (Q : Fin 16384) (o' : Fin 32) (hQ : Q.val = g.val * 4096 + n.val) (ho : o'.val = o.val) :
    Cert.Spec.layer af W b Q o'
      = (∑ f : Fin 128, af (ix2 n f) * W (ix2 (Cert.KernelIdeal.Payloads.wRow g o) f)) + b (ix1 (Cert.KernelIdeal.Payloads.wRow g o)) := by
  obtain rfl : o = o' := Fin.ext ho.symm
  have ha : atomOf Q = n := Fin.ext (by show Q.val % 4096 = n.val; have := n.isLt; omega)
  have hf : featOf Q o = Cert.KernelIdeal.Payloads.wRow g o :=
    Fin.ext (by show Q.val / 4096 * 32 + o.val = g.val * 32 + o.val; have := n.isLt; omega)
  unfold Cert.Spec.layer Cert.Spec.lin
  rw [ha, hf]

/-- A load of one row of the bias block reads that row. -/
theorem bias_row (x2 : Vec Ideal S4x1x32 .f32) (g : Fin 4) (off : Fin 3 → Nat) (hoff : off = ![g.val, 0, 0])
    (inb : ∀ a, off a + S1x1x32.size a ≤ S4x1x32.size a) (o : Fin 32) :
    View.ld x2 (Rect.unit off S1x1x32.size inb) (ix3 (0 : Fin 1) (0 : Fin 1) o) = x2 (ix3 g (0 : Fin 1) o) := by
  subst hoff
  refine congrArg x2 (funext fun a => Fin.ext ?_)
  match a with
  | ⟨0, _⟩ => show g.val + 1 * 0 = g.val; omega
  | ⟨1, _⟩ => show 0 + 1 * 0 = 0; rfl
  | ⟨2, _⟩ => show 0 + 1 * o.val = o.val; omega

/-- A store of 4096 rows from row g · 4096 whose payload is group g of the layer is its block of the regrouped layer. -/
theorem group_piece (af : Vec Ideal S4096x128 .f32) (W : Vec Ideal S128x128 .f32) (b : Vec Ideal S128 .f32)
    (g : Fin 4) (off : Fin 2 → Nat) (hoff : off = ![g.val * 4096, 0])
    (inb : ∀ a, off a + S4096x32.size a ≤ S16384x32.size a)
    (w : (Rect.unit (s := S16384x32) off S4096x32.size inb).shape.Idx → Elt Ideal .bf16)
    (hw : ∀ (n : Fin 4096) (o : Fin 32), w (ix2 n o)
      = (∑ f : Fin 128, af (ix2 n f) * W (ix2 (Cert.KernelIdeal.Payloads.wRow g o) f)) + b (ix1 (Cert.KernelIdeal.Payloads.wRow g o))) :
    ∀ x : (Rect.unit (s := S16384x32) off S4096x32.size inb).shape.Idx, w x = layerFn af W b ((Rect.unit (s := S16384x32) off S4096x32.size inb).emb x) := by
  subst hoff
  intro x
  obtain ⟨n, o, rfl⟩ : ∃ (n : Fin 4096) (o : Fin 32), x = ix2 n o := ⟨x 0, x 1, eq_ix2 x⟩
  refine (hw n o).trans ?_
  unfold layerFn
  exact (layer_at_group af W b g n o _ _
    (by show g.val * 4096 + 1 * n.val = g.val * 4096 + n.val; omega)
    (by show 0 + 1 * o.val = o.val; omega)).symm

/-- Two sums plus a constant agree when their terms and their constants do. -/
theorem sum_add_congr {a a' : Fin 128 → EReal} {k k' : EReal} (hs : ∀ f, a f = a' f) (hk : k = k') :
    (∑ f, a f) + k = (∑ f, a' f) + k' := by
  rw [hk]; exact congrArg (· + k') (Finset.sum_congr rfl fun f _ => hs f)

theorem hz2 : (![0, 0] : Fin 2 → Nat) = fun _ => 0 := funext fun a => by fin_cases a <;> rfl

/-- Each store of the first point is its block of the specification's layer. -/
theorem pieces_layer (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S1024x2048 .f32) (harg5 : arg5.IsWhole) (arg6 : Memref sig .tc .vmem S32x1024 .f32) (harg6 : arg6.IsWhole) (arg7 : Memref sig .tc .vmem S16384x32 .bf16) (harg7 : arg7.IsWhole)
    (hc1 : condInit i) (hc2 : condAssign i) (hc3 : ¬condAdd i) (x0 : Vec Ideal S4096x128 .f32) (x1 : Vec Ideal S128x128 .f32) (x2 : Vec Ideal S4x1x32 .f32) (x3 : Vec Ideal S1024x2048 .f32)
    (af : Vec Ideal S4096x128 .f32) (W : Vec Ideal S128x128 .f32) (b : Vec Ideal S128 .f32)
    (h0 : ∀ (n : Fin 4096) (f : Fin 128), x0 (ix2 n f) = af (ix2 n f))
    (h1 : ∀ (k : Fin 128) (f : Fin 128), x1 (ix2 k f) = W (ix2 k f))
    (h2 : ∀ (g : Fin 4) (o : Fin 32), x2 (ix3 g (0 : Fin 1) o) = b (ix1 (Cert.KernelIdeal.Payloads.wRow g o))) :
    ∀ p ∈ (runInit (F := Ideal) c i arg2 harg2 arg3 harg3 arg4 harg4 arg5 harg5 arg6 harg6 arg7 harg7 hc1 hc2 hc3 x0 x1 x2 x3).2.1,
      ∀ x : p.1.shape.Idx, p.2 x = layerFn af W b (p.1.emb x) := by
  unfold runInit; dsimp only; sl_unfold_words
  simp only [View.readAt_eq_ld, harg2.read_unread, harg3.read_unread, harg4.read_unread,
    View.ld_unit_zero (S := S4096x128) hz2, View.ld_unit_zero (S := S128x128) hz2]
  intro p hp
  simp only [List.mem_cons, List.mem_nil_iff, or_false] at hp
  rcases hp with rfl | rfl | rfl | rfl
  · refine group_piece af W b 3 _ ?_ (by decide) _ fun n o => ?_
    · rfl
    exact (Cert.KernelIdeal.Payloads.pay1_apply _ _ _ n o).trans
      (sum_add_congr (fun f => by rw [Cert.KernelIdeal.Payloads.pay4_eq, Cert.KernelIdeal.Payloads.pay9_apply, h0, h1])
        ((bias_row x2 3 _ rfl (by decide) o).trans (h2 3 o)))
  · refine group_piece af W b 2 _ ?_ (by decide) _ fun n o => ?_
    · rfl
    exact (Cert.KernelIdeal.Payloads.pay8_apply _ _ _ n o).trans
      (sum_add_congr (fun f => by rw [h0, h1]) ((bias_row x2 2 _ rfl (by decide) o).trans (h2 2 o)))
  · refine group_piece af W b 1 _ ?_ (by decide) _ fun n o => ?_
    · rfl
    exact (Cert.KernelIdeal.Payloads.pay7_apply _ _ _ n o).trans
      (sum_add_congr (fun f => by rw [h0, h1]) ((bias_row x2 1 _ rfl (by decide) o).trans (h2 1 o)))
  · refine group_piece af W b 0 _ ?_ (by decide) _ fun n o => ?_
    · rfl
    exact (Cert.KernelIdeal.Payloads.pay6_apply _ _ _ n o).trans
      (sum_add_congr (fun f => by rw [h0, h1]) ((bias_row x2 0 _ rfl (by decide) o).trans (h2 0 o)))

end Layer

/-! ## The scratch read back -/

/-- The scratch's contents, read at row `Q` and feature `o`. -/
theorem layerAt_apply (c : Dev nD) (Q : Fin 16384) (o : Fin 32) :
    layerAt (F := Ideal) m c (ix2 Q o) = Cert.Spec.layer (atoms m c) (weight m c) (bias m c) Q o := by
  unfold layerAt
  rw [View.read_writes_junk_eq_canon]
  exact View.canon_apply_of_pieces (Layer.layerFn (atoms m c) (weight m c) (bias m c)) _
    (Layer.pieces_layer c (grid0.coords t0) (ms0 t0) (hs0 t0) (ms1 t0) (hs1 t0) (ms2 t0) (hs2 t0) (ms3 t0) (hs3 t0) (ms4 t0) (hs4 t0)
      scM (Memref.isWhole_whole _) hInit0 hAssign0 hAdd0 (iblk m c 0 t0) (iblk m c 1 t0) (iblk m c 2 t0) (iblk m c 3 t0)
      (atoms m c) (weight m c) (bias m c) (Layer.blk_atoms m c) (Layer.blk_weight m c) (Layer.blk_bias m c))
    (ix2 Q o) (layerCover m c (ix2 Q o))

end Cert.KernelIdeal.Hand

end
-- ==== Proof.IdealBands.lean ====
/-
  The accumulation over a band. After tile k of a band the output buffer holds the sum of the tile products 0 … k;
  after the last tile that is the whole sum over the 16384 rows of the regrouped layer, which is the specification's
  value (the factors of each product in the other order).
-/
import proofs.«168233_g16793322127443_cont_week2b_1270_42_alg».proof.Proof.IdealTiles
import proofs.«168233_g16793322127443_cont_week2b_1270_42_alg».proof.Proof.IdealLayer

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Spec
open scoped BigOperators

variable (m : (ℓ : Loc nD τ sig) → Buf (Elt Ideal) ℓ)

/-- The tile product of tile number `k` (zero past the eighth: no such tile). -/
def tileTerm (c : Dev nD) (i : Fin 4) (o : Fin 32) (r : Fin 1024) (k : ℕ) : EReal :=
  if h : k < 8 then tileProd (layerAt (F := Ideal) m c) (bonds m c) i ⟨k, h⟩ o r else 0

/-- Inside the band the tile term is the tile product. -/
theorem tileTerm_of_lt (c : Dev nD) (i : Fin 4) (o : Fin 32) (r : Fin 1024) (k : ℕ) (h : k < 8) :
    tileTerm m c i o r k = tileProd (layerAt (F := Ideal) m c) (bonds m c) i ⟨k, h⟩ o r := by
  unfold tileTerm
  exact dif_pos h

/-- After point `t` the output buffer holds the tile products of its band up to its tile. -/
theorem outAt_apply (c : Dev nD) (t : Fin cfg0.N) (o : Fin 32) (r : Fin 1024) :
    outAt (F := Ideal) m c t.val t.isLt (ix2 o r) = ∑ k ∈ Finset.range (t.val % 8 + 1), tileTerm m c (bandOf t) o r k := by
  obtain ⟨n, hn⟩ := t
  induction n with
  | zero =>
    -- the first point assigns tile 0 of band 0: a sum of one term
    rw [outAt_zero m c ⟨0, hn⟩ rfl, outInit_apply]
    show _ = ∑ k ∈ Finset.range 1, tileTerm m c (bandOf ⟨0, hn⟩) o r k
    rw [Finset.sum_range_one, tileTerm_of_lt m c _ o r 0 (by decide)]
    rfl
  | succ n ih =>
    have hlt : (n + 1) % 8 < 8 := Nat.mod_lt _ (by decide)
    have htile : tileOf ⟨n + 1, hn⟩ = ⟨(n + 1) % 8, hlt⟩ := rfl
    by_cases h8 : (n + 1) % 8 = 0
    · -- a band start assigns its tile 0: a sum of one term
      rw [outAt_assign m c ⟨n + 1, hn⟩ (Nat.succ_ne_zero n) h8, outAssign_apply, htile]
      show _ = ∑ k ∈ Finset.range ((n + 1) % 8 + 1), tileTerm m c (bandOf ⟨n + 1, hn⟩) o r k
      have h1 : (n + 1) % 8 + 1 = 1 := by omega
      rw [h1, Finset.sum_range_one, tileTerm_of_lt m c _ o r 0 (by decide)]
      congr 1
      exact Fin.ext h8
    · -- elsewhere the tile product is added to the sum the previous point of the same band left
      rw [outAt_add m c ⟨n + 1, hn⟩ (Nat.succ_ne_zero n) h8, outAdd_apply, htile]
      show outAt (F := Ideal) m c n (Nat.lt_of_succ_lt hn) (ix2 o r) + _
        = ∑ k ∈ Finset.range ((n + 1) % 8 + 1), tileTerm m c (bandOf ⟨n + 1, hn⟩) o r k
      have hb : bandOf ⟨n, Nat.lt_of_succ_lt hn⟩ = bandOf ⟨n + 1, hn⟩ := by
        apply Fin.ext
        show n / 8 = (n + 1) / 8
        omega
      have hk : (n + 1) % 8 = n % 8 + 1 := by omega
      rw [Finset.sum_range_succ, tileTerm_of_lt m c _ o r ((n + 1) % 8) hlt, ih (Nat.lt_of_succ_lt hn), hb]
      show ∑ k ∈ Finset.range (n % 8 + 1), tileTerm m c (bandOf ⟨n + 1, hn⟩) o r k + _ = _
      rw [← hk]

/-- After a band's last tile the output buffer holds the specification's rows of that band. -/
theorem outAt_band (c : Dev nD) (t : Fin cfg0.N) (h7 : t.val % 8 = 7) (o : Fin 32) (r : Fin 1024) :
    outAt (F := Ideal) m c t.val t.isLt (ix2 o r)
      = Cert.Spec.Gat (atoms m c) (bonds m c) (weight m c) (bias m c) (bandRow (bandOf t) r) o := by
  have h8 : t.val % 8 + 1 = 8 := by omega
  -- the eight tile products of the band, tile by tile, are the sum over all rows of the regrouped layer
  rw [outAt_apply, h8, Finset.sum_range (fun k => tileTerm m c (bandOf t) o r k)]
  unfold Cert.Spec.Gat
  rw [sum_tiles]
  refine Finset.sum_congr rfl (fun k _ => ?_)
  rw [tileTerm_of_lt m c _ o r k.val k.isLt]
  unfold tileProd
  refine Finset.sum_congr rfl (fun q _ => ?_)
  -- the two factors in the other order
  rw [layerAt_apply, mul_comm]

end Cert.KernelIdeal.Hand

end
-- ==== Proof.IdealArray.lean ====
/-
  From the blocks to the arrays. The output array of the region is written back one band at a time, after the band's
  last tile; the four bands tile it, so it ends holding the specification transposed (features by rows). The host line
  after the region transposes it: the program's result is the specification's array.
-/
import proofs.«168233_g16793322127443_cont_week2b_1270_42_alg».proof.Proof.IdealBands

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Spec
open scoped BigOperators

variable (m : (ℓ : Loc nD τ sig) → Buf (Elt Ideal) ℓ) (ρ : Dev nD → PrngReg)

/-- The region's output array as a whole: feature `o`, row `R` ↦ the specification at (R, o). -/
def regionOut (c : Dev nD) : Vec Ideal S32x4096 .f32 :=
  fun j => Cert.Spec.Gat (atoms m c) (bonds m c) (weight m c) (bias m c) ⟨(j 1).val, (j 1).isLt⟩ ⟨(j 0).val, (j 0).isLt⟩

/-- The output window's block index at a point: none along the features, the band along the rows. -/
theorem outIndex : ∀ t : Fin cfg0.N, win0_4.index t (0 : Fin 2) = 0 ∧ win0_4.index t (1 : Fin 2) = t.val / 8 :=
  (by decide +kernel : ∀ t : Fin grid0.N, win0_4.index t (0 : Fin 2) = 0 ∧ win0_4.index t (1 : Fin 2) = t.val / 8)

/-- The region's output array at an index whose coordinates are feature `o` and row `R`. -/
theorem regionOut_apply (c : Dev nD) (j : S32x4096.Idx) (R : Fin 4096) (o : Fin 32) (h0 : (j 0).val = o.val) (h1 : (j 1).val = R.val) :
    regionOut m c j = Cert.Spec.Gat (atoms m c) (bonds m c) (weight m c) (bias m c) R o :=
  congrArg₂ (Cert.Spec.Gat (atoms m c) (bonds m c) (weight m c) (bias m c)) (Fin.ext h1) (Fin.ext h0)

/-- A block of the output array read at (o, r) is the array at the embedded index. -/
theorem outBlock_read (t : Fin cfg0.N) (X : Vec Ideal S32x4096 .f32) (o : Fin 32) (r : Fin 1024) :
    View.read (Elt Ideal) ((cfg0.win 4).blk t).view X (ix2 o r) = X (((cfg0.win 4).blk t).view.emb (ix2 o r)) := rfl

/-- The embedded index of (o, r) in point `t`'s block: feature `o`, row `r` of band `t / 8`. -/
theorem outBlock_emb (t : Fin cfg0.N) (o : Fin 32) (r : Fin 1024) :
    ((((cfg0.win 4).blk t).view.emb (ix2 o r)) 0).val = o.val
      ∧ ((((cfg0.win 4).blk t).view.emb (ix2 o r)) 1).val = (bandRow (bandOf t) r).val := by
  obtain ⟨e0, e1⟩ := outIndex t
  constructor
  · show win0_4.index t (0 : Fin 2) * 32 + 1 * o.val = o.val
    omega
  · show win0_4.index t (1 : Fin 2) * 1024 + 1 * r.val = t.val / 8 * 1024 + r.val
    omega

/-- What is written back after a band's last tile is that band's block of the whole output array: the buffer holds the
    specification's rows of the band, feature by row. -/
theorem flushedOut (c : Dev nD) (t : Fin cfg0.N) (hf : (cfg0.win 4).flush t = true) :
    (dats (F := Ideal) m 0 c).flushed 4 t = ((cfg0.win 4).blk t).view.read (Elt Ideal) (regionOut m c) := by
  have h7 : t.val % 8 = 7 := (flush0_4 t).mp hf
  show (cfg0.win 4).cut (grid0.coords t) ((dats (F := Ideal) m 0 c).after 4 t) = _
  rw [after4]
  funext y
  obtain ⟨o, r, rfl⟩ : ∃ (o : Fin 32) (r : Fin 1024), y = ix2 o r := ⟨y 0, y 1, eq_ix2 (n0 := 32) (n1 := 1024) y⟩
  show outAt (F := Ideal) m c t.val t.isLt (ix2 o r) = _
  rw [outAt_band m c t h7 o r, outBlock_read t (regionOut m c) o r]
  exact (regionOut_apply m c _ (bandRow (bandOf t) r) o (outBlock_emb t o r).1 (outBlock_emb t o r).2).symm

/-- An index of the output array is in point `t`'s block iff each coordinate is in the block's range on its axis. -/
theorem mem_outBlock (t : Fin cfg0.N) (i : S32x4096.Idx) :
    i ∈ ((cfg0.win 4).blk t).view.set ↔ ∀ a : Fin 2, win0_4.index t a * S32x1024.size a ≤ (i a).val ∧ (i a).val < win0_4.index t a * S32x1024.size a + S32x1024.size a := by
  show i ∈ ((View.whole main_v1).slice (win0_4.rect t)).set ↔ _
  rw [View.set_slice_whole, Rect.mem_set_unit]
  exact Iff.rfl

/-- Every index (o, R) of the output array is in the block written back after the last tile of row `R`'s band,
    at point (R / 1024) · 8 + 7. -/
theorem outCovered (i : S32x4096.Idx) : ∃ t : Fin cfg0.N, (cfg0.win 4).flush t = true ∧ i ∈ ((cfg0.win 4).blk t).view.set := by
  have hi0 : (i 0).val < 32 := (i 0).isLt
  have hi1 : (i 1).val < 4096 := (i 1).isLt
  have hN : cfg0.N = 32 := N_0
  have hlt : (i 1).val / 1024 * 8 + 7 < cfg0.N := by omega
  obtain ⟨e0, e1⟩ := outIndex ⟨(i 1).val / 1024 * 8 + 7, hlt⟩
  have e1' : win0_4.index ⟨(i 1).val / 1024 * 8 + 7, hlt⟩ (1 : Fin 2) = ((i 1).val / 1024 * 8 + 7) / 8 := e1
  refine ⟨⟨(i 1).val / 1024 * 8 + 7, hlt⟩, (flush0_4 _).mpr (by show ((i 1).val / 1024 * 8 + 7) % 8 = 7; omega), ?_⟩
  rw [mem_outBlock]
  intro a
  match a with
  | ⟨0, _⟩ => show win0_4.index ⟨(i 1).val / 1024 * 8 + 7, hlt⟩ (0 : Fin 2) * 32 ≤ (i 0).val ∧ (i 0).val < win0_4.index ⟨(i 1).val / 1024 * 8 + 7, hlt⟩ (0 : Fin 2) * 32 + 32; omega
  | ⟨1, _⟩ => show win0_4.index ⟨(i 1).val / 1024 * 8 + 7, hlt⟩ (1 : Fin 2) * 1024 ≤ (i 1).val ∧ (i 1).val < win0_4.index ⟨(i 1).val / 1024 * 8 + 7, hlt⟩ (1 : Fin 2) * 1024 + 1024; omega

/-- The output array after the run. -/
theorem final4 (c : Dev nD) : (dats (F := Ideal) m 0 c).arrAt 4 cfg0.N = regionOut m c :=
  (dats (F := Ideal) m 0 c).arrAt_eq_of_cover 4 (regionOut m c) (flushedOut m c) outCovered

/-- The program's result buffer after the host line that follows the region. -/
theorem result_eq (c : Dev nD) :
    Pipeline.afterTail₀ cfgs (dats (F := Ideal) m) 0 (V0 m) [hostOps1] c main_v2
      = Cert.Spec.G (atoms m c) (bonds m c) (weight m c) (bias m c) := by
  unfold Pipeline.afterTail₀
  show StableHlo.after hostOps1 _ (Proc.devRef .tc main_v2) = _
  after_results
  -- the host line transposes the region's output array, which holds the specification feature by row
  have e : Pipeline.withArrays (cfgs 0).spec c (V0 m c) (fun w => (dats (F := Ideal) m 0 c).arrAt w (cfgs 0).N) (Proc.devRef .tc main_v1)
      = regionOut m c :=
    (Pipeline.withArrays_arr spec0 launch0.win.arr_inj c _ _ 4).trans (final4 m c)
  rw [e]
  funext j
  obtain ⟨r, o, rfl⟩ : ∃ (r : Fin 4096) (o : Fin 32), j = ix2 r o := ⟨j 0, j 1, eq_ix2 (n0 := 4096) (n1 := 32) j⟩
  refine (transpose_apply [1, 0] (regionOut m c) transposes_S32x4096_S4096x32_1_0 (ix2 r o) (ix2 o r) (fun b => match b with
    | ⟨0, _⟩ => rfl
    | ⟨1, _⟩ => rfl)).trans ?_
  rw [G_apply]
  exact regionOut_apply m c (ix2 o r) r o rfl rfl

/-- THE RUN WITH ITS VALUE: the program terminates, faults nowhere, ends with its result at the specification and its
    arguments as they were. -/
theorem run_value : θ_run defs (onTc (τ := τ) (main (F := Ideal))) ⟨m, fun _ => 0, ρ⟩ (fun r => ∀ c : Dev nD,
      r.2.mem ((c.tc : Thread nD τ).loc main_v2) = Cert.Spec.G (atoms m c) (bonds m c) (weight m c) (bias m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v2 (Pipeline.mem_restRefs_of main_v2 (by decide) (by decide))).trans (result_eq m c),
      ((h c).1 0).trans (((dats (F := Ideal) m 0 c).arrAt_in 0 rfl _).trans ((A_eq m c 0).trans (V_main_arg0 m c))),
      ((h c).1 3).trans (((dats (F := Ideal) m 0 c).arrAt_in 3 rfl _).trans ((A_eq m c 3).trans (V_main_arg1 m c))),
      ((h c).1 1).trans (((dats (F := Ideal) m 0 c).arrAt_in 1 rfl _).trans ((A_eq m c 1).trans (V_main_arg2 m c))),
      ((h c).2 main_arg3 (Pipeline.mem_restRefs_of main_arg3 (by decide) (by decide))).trans (W_main_arg3 m (dats (F := Ideal) m) c)⟩)
    (run_main m ρ)

end Cert.KernelIdeal.Hand

end
-- ==== Proof.RefIsSpec.lean ====
/-
  The reference computes the specification: read one operation at a time, its result at row `r`, column `o` is
  Σ_Q bi[r, Q] · layer[Q, o].
-/
import proofs.«168233_g16793322127443_cont_week2b_1270_42_alg».proof.Proof.Spec
import proofs.«168233_g16793322127443_cont_week2b_1270_42_alg».proof.Proof.Gen.ReferenceIdeal.Read

noncomputable section

namespace Cert.RefValue

open Idealize.ShloMosaic Idealize.ShloMosaic.ValueIdx Cert.ReferenceIdeal Cert.ReferenceIdeal.Read Cert.Spec
open scoped BigOperators

/-! ## The index arithmetic of the layout operations -/

/-- In the first product, entry (n, c) reads the atoms at (n, f) … -/
theorem atoms_index (n : Fin 4096) (c f : Fin 128) : lidx_main_v1 (ix2 n c) f = ix2 n f := by
  funext a; match a with | ⟨0, _⟩ => rfl | ⟨1, _⟩ => rfl

/-- … and the transposed weights at (f, c), that is the weights at (c, f). -/
theorem weight_index (n : Fin 4096) (c f : Fin 128) : idx_main_v0 (ridx_main_v1 (ix2 n c) f) = ix2 c f := by
  funext a; match a with | ⟨0, _⟩ => rfl | ⟨1, _⟩ => rfl

/-- The bias broadcast over the atoms reads the bias at the feature. -/
theorem bias_index (n : Fin 4096) (c : Fin 128) : idx_main_v2 (idx_main_v3 (ix2 n c)) = ix1 c := by
  funext a; match a with | ⟨0, _⟩ => rfl

/-- In the second product, entry (r, o) reads the bond matrix at (r, Q) … -/
theorem bonds_index (r : Fin 4096) (o : Fin 32) (Q : Fin 16384) : lidx_main_v8 (ix2 r o) Q = ix2 r Q := by
  funext a; match a with | ⟨0, _⟩ => rfl | ⟨1, _⟩ => rfl

/-- … and the regrouped layer at (Q, o). -/
theorem layer_index (r : Fin 4096) (o : Fin 32) (Q : Fin 16384) : ridx_main_v8 (ix2 r o) Q = ix2 Q o := by
  funext a; match a with | ⟨0, _⟩ => rfl | ⟨1, _⟩ => rfl

/-- The arithmetic of the regrouping, on naturals: with t = Q / 4096 and n = Q mod 4096, the flat position Q · 32 + o splits as
    (t, n, o), and the flat position (n · 4 + t) · 32 + o splits as (n, t · 32 + o). -/
theorem regroup_arith (Q o : ℕ) (hQ : Q < 16384) (ho : o < 32) :
    (((Q * 32 + o) / 32 % 4096 * 4 + (Q * 32 + o) / 131072) * 32 + (Q * 32 + o) % 32) / 128 = Q % 4096 ∧
    (((Q * 32 + o) / 32 % 4096 * 4 + (Q * 32 + o) / 131072) * 32 + (Q * 32 + o) % 32) % 128 = Q / 4096 * 32 + o := by
  have e1 : (Q * 32 + o) / 32 = Q := by omega
  have e2 : (Q * 32 + o) % 32 = o := by omega
  have e3 : (Q * 32 + o) / 131072 = Q / 4096 := by omega
  rw [e1, e2, e3]
  have ht : Q / 4096 < 4 := by omega
  constructor <;> omega

/-- Row Q, column o of the regrouped layer: flat position Q · 32 + o of the 4 × 4096 × 32 array is
    (t, n, o) with t = Q / 4096, n = Q mod 4096; the transpose reads (n, t, o) of the 4096 × 4 × 32 array, whose
    flat position (n · 4 + t) · 32 + o is entry (n, t · 32 + o) of the 4096 × 128 linear layer. -/
theorem regroup_index (Q : Fin 16384) (o : Fin 32) :
    idx_main_v5 (idx_main_v6 (idx_main_v7 (ix2 Q o))) = ix2 (atomOf Q) (featOf Q o) := by
  obtain ⟨h0, h1⟩ := regroup_arith Q.val o.val Q.isLt o.isLt
  funext a
  match a with
  | ⟨0, _⟩ => exact Fin.ext h0
  | ⟨1, _⟩ => exact Fin.ext h1

/-! ## The stages -/

/-- The product with the transposed weights plus the broadcast bias is the linear layer. -/
theorem linear_stage (x0 : (⟨S4096x128, .f32⟩ : BufTy).Contents (Elt Ideal)) (x2 : (⟨S128x128, .f32⟩ : BufTy).Contents (Elt Ideal))
    (x3 : (⟨S128, .f32⟩ : BufTy).Contents (Elt Ideal)) (n : Fin 4096) (c : Fin 128) :
    val_main_v4 (F := Ideal) x0 x2 x3 (ix2 n c) = lin x0 x2 x3 n c := by
  rw [val_main_v4_apply, val_main_v1_apply, val_main_v3_apply, val_main_v2_apply, bias_index]
  unfold lin
  show _ + _ = _ + _
  congr 1
  refine Finset.sum_congr rfl fun f _ => ?_
  rw [val_main_v0_apply, atoms_index, weight_index]

/-- The two reshapes around the transpose regroup the linear layer. -/
theorem layer_stage (x0 : (⟨S4096x128, .f32⟩ : BufTy).Contents (Elt Ideal)) (x2 : (⟨S128x128, .f32⟩ : BufTy).Contents (Elt Ideal))
    (x3 : (⟨S128, .f32⟩ : BufTy).Contents (Elt Ideal)) (Q : Fin 16384) (o : Fin 32) :
    val_main_v7 (F := Ideal) x0 x2 x3 (ix2 Q o) = layer x0 x2 x3 Q o := by
  rw [val_main_v7_apply, val_main_v6_apply, val_main_v5_apply, regroup_index, linear_stage]
  rfl

/-- The reference's last stage is the specification's array. -/
theorem ref_eq_G (x0 : (⟨S4096x128, .f32⟩ : BufTy).Contents (Elt Ideal)) (x1 : (⟨S4096x16384, .f32⟩ : BufTy).Contents (Elt Ideal))
    (x2 : (⟨S128x128, .f32⟩ : BufTy).Contents (Elt Ideal)) (x3 : (⟨S128, .f32⟩ : BufTy).Contents (Elt Ideal)) :
    val_main_v8 (F := Ideal) x0 x1 x2 x3 = Cert.Spec.G x0 x1 x2 x3 := by
  funext j
  obtain ⟨r, o, rfl⟩ : ∃ (r : Fin 4096) (o : Fin 32), j = ix2 r o := ⟨j 0, j 1, eq_ix2 j⟩
  rw [G_apply, val_main_v8_apply]
  unfold Gat
  refine Finset.sum_congr rfl fun Q _ => ?_
  rw [bonds_index, layer_index, layer_stage]

end Cert.RefValue

end
-- ==== Proof.lean ====
/-
  The certificate's claims, assembled.

  The kernel computes, on a 4 × 8 grid, the product of the bond matrix (4096 × 16384) with the regrouped linear
  layer: the layer lin n c = Σ_f af[n, f] · W[c, f] + b[c] over 4096 atoms and 128 features, its features read as
  four groups of 32 and laid out group after group (row t · 4096 + n, column o holds lin n (t · 32 + o)). The first
  grid point stores the regrouped layer into a scratch buffer that every later point reads; each point multiplies a
  2048-row tile of the layer with the matching 1024 × 2048 block of the bond matrix; the eight tile products of a band
  of 1024 result rows are accumulated in the output block, which is written back after the last. The reference forms
  the same layer by a transpose, a product, a broadcast sum, two reshapes and a transpose, and takes one whole product.

  On the extended reals both are G[r, o] = Σ_Q bi[r, Q] · layer[Q, o]: a change of float format is the identity, a
  matrix product into a zero accumulator is the plain sum over the contracted axis, and the kernel's eight partial
  sums regroup the one sum over 16384 rows (addition is commutative and associative there, and the product commutes),
  so no finiteness of the inputs is used. The three programs' frames: the two kernels' by the body's run at every
  grid point under an invariant that names the scratch's contents from the first point on; the reference's by its run.
  The idealization rewrote no operation, so what it must preserve is nothing.
-/
import proofs.«168233_g16793322127443_cont_week2b_1270_42_alg».proof.Defs
import proofs.«168233_g16793322127443_cont_week2b_1270_42_alg».proof.Proof.Gen.Kernel
import proofs.«168233_g16793322127443_cont_week2b_1270_42_alg».proof.Proof.Gen.KernelIdeal
import proofs.«168233_g16793322127443_cont_week2b_1270_42_alg».proof.Proof.Gen.ReferenceIdeal
import proofs.«168233_g16793322127443_cont_week2b_1270_42_alg».proof.Proof.Gen.Pre_finite_inputs
import proofs.«168233_g16793322127443_cont_week2b_1270_42_alg».proof.Proof.Gen.ReferenceIdeal.Run
import proofs.«168233_g16793322127443_cont_week2b_1270_42_alg».proof.Proof.BitsFrame
import proofs.«168233_g16793322127443_cont_week2b_1270_42_alg».proof.Proof.IdealArray
import proofs.«168233_g16793322127443_cont_week2b_1270_42_alg».proof.Proof.RefIsSpec

noncomputable section

namespace Cert.Proof

open Idealize.ShloMosaic Idealize.ShloMosaic.TcCoe Idealize.SL.Sem

/-- The program as printed runs to the end, faults nowhere and leaves its arguments as they were. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments the idealized kernel and the idealized reference both end at the
    specification's array of those arguments. -/
theorem algebraic : Cert.algebraic_KernelIdeal_ReferenceIdeal := by
  intro m ρ m' ρ' _ hagree
  refine ⟨fun c => Cert.Spec.G (Cert.KernelIdeal.Hand.atoms m c) (Cert.KernelIdeal.Hand.bonds m c)
    (Cert.KernelIdeal.Hand.weight m c) (Cert.KernelIdeal.Hand.bias m c), Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.RefValue.ref_eq_G, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
